-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x16 : Shape := ⟨2, ![1600000, 16]⟩
abbrev S144x64 : Shape := ⟨2, ![144, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S144x64 : S_.BroadcastsInDim S144x64 (![] : Fin 0 → Fin S144x64.rank)
  reducesTo_S144x64_S_d0_1 : S144x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part3 {F : FTy → Type} [FloatOps F] (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S64 .f32) (main_arg9 : FVec F S64x64 .f32) (main_arg10 : FVec F S64 .f32) (main_arg11 : FVec F S64 .f32) (main_arg12 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_v48 main_v49 main_v50

def fn_part1 {F : FTy → Type} [FloatOps F] (main_arg5 : FVec F S64x64 .f32) (main_arg6 : FVec F S64 .f32) (main_arg7 : FVec F S128x64 .f32) (main_arg8 : FVec F S64 .f32) (main_arg9 : FVec F S64x64 .f32) (main_arg10 : FVec F S64 .f32) (main_arg11 : FVec F S64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1600000 32) (main_arg2 : FVec F S1600000x16 .f32) (main_arg3 : FVec F S144x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) (main_arg11 : FVec F S64 .f32) (main_arg12 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S144x64 .f32 := Host.absf main_arg3
  let main_cst_2 : FVec F S_ .f32 := constant S_ .f32 0x7F800000#32
  let main_v10 : FVec F S144x64 .f32 := broadcastInDim S144x64 ![] bcast_S_S144x64 main_cst_2
  let main_v11 : IVec S144x64 1 := cmpf .olt main_v9 main_v10
  let main_c_3 : IVec S_ 1 := constantI S_ 1 1#1
  let main_v12 : IVec S_ 1 := (fun x v => Host.reduce IntOp.andi x v reducesTo_S144x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S1600000x16 : Shape := ⟨2, ![1600000, 16]⟩
abbrev S144x64 : Shape := ⟨2, ![144, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S8000x64 : Shape := ⟨2, ![8000, 64]⟩
abbrev S8000x16 : Shape := ⟨2, ![8000, 16]⟩
abbrev S8000x144 : Shape := ⟨2, ![8000, 144]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 51
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S144x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S1x64, .f32⟩
  | .hbm, ⟨36, _⟩ => ⟨S1x64, .f32⟩
  | .hbm, ⟨37, _⟩ => ⟨S144x64, .bf16⟩
  | .hbm, ⟨38, _⟩ => ⟨S64x64, .bf16⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S128x64, .bf16⟩
  | .hbm, ⟨49, _⟩ => ⟨S64x64, .bf16⟩
  | .hbm, ⟨50, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x16, .f32⟩
  | .local _ .vmem, ⟨5, _⟩ => ⟨S8000x16, .f32⟩
  | .local _ .vmem, ⟨6, _⟩ => ⟨S144x64, .bf16⟩
  | .local _ .vmem, ⟨7, _⟩ => ⟨S1x64, .f32⟩
  | .local _ .vmem, ⟨8, _⟩ => ⟨S64x64, .bf16⟩
  | .local _ .vmem, ⟨9, _⟩ => ⟨S1x64, .f32⟩
  | .local _ .vmem, ⟨10, _⟩ => ⟨S8000x64, .f32⟩
  | .local _ .vmem, ⟨11, _⟩ => ⟨S8000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S128x64, .bf16⟩
  | .local _ .vmem, ⟨17, _⟩ => ⟨S1x64, .f32⟩
  | .local _ .vmem, ⟨18, _⟩ => ⟨S64x64, .bf16⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S144x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  bitsLt_bf16_f32 : FTy.bits .bf16 < FTy.bits .f32
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x16_S8000x16_0_0 : ∀ a, (![0, 0] : Fin 2 → Nat) a + S8000x16.size a ≤ S8000x16.size a
  h_S8000x16 : 0 < S8000x16.numel
  concatenates_S8000x64_S8000x64_S8000x16_S8000x144_d1 : Shape.Concatenates [S8000x64, S8000x64, S8000x16] S8000x144 1
  inb_S144x64_S144x64_0_0 : ∀ a, (![0, 0] : Fin 2 → Nat) a + S144x64.size a ≤ S144x64.size a
  h_S144x64 : 0 < S144x64.numel
  shapeCasts_S144x64_S144x64 : S144x64.ShapeCasts S144x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S100000x64_S1600000x1_S1600000x64_1_0_n_n_0_1_164_wf : GatherDims.WF S100000x64 S1600000x1 S1600000x64 [1] [0] [] [0] [] 1 ![1, 64]
  dot_S8000x144_S144x64_S8000x64_1_0_0_1_n_n_wf : DotDims.WF S8000x144 S144x64 S8000x64 [1] [0] [0] [1] [] []
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S1600000x16.size a
  hwx0_2 : ∀ i : grid0.Coords, EltTy.bits .f32 = 32 ∨ (Rect.block (s := S1600000x16) S8000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S144x64.size a ≤ S144x64.size a
  hwx0_3 : ∀ i : grid0.Coords, EltTy.bits .bf16 = 32 ∨ (Rect.block (s := S144x64) S144x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S1600000x64.size a
  hwx0_7 : ∀ i : grid0.Coords, EltTy.bits .f32 = 32 ∨ (Rect.block (s := S1600000x64) S8000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .bf16 = 32 ∨ (Rect.block (s := S128x64) S128x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x144_S144x64_S8000x64_1_0_0_1_n_n : DotDims S8000x144 S144x64 S8000x64 where
  lhsContracting := [1]
  rhsContracting := [0]
  lhsNonContracting := [0]
  rhsNonContracting := [1]
  lhsBatch := []
  rhsBatch := []
  wf := dot_S8000x144_S144x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v17) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S144x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x16 : Shape := ⟨2, ![1600000, 16]⟩
abbrev S144x64 : Shape := ⟨2, ![144, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x144 : Shape := ⟨2, ![1600000, 144]⟩
abbrev S1x64 : Shape := ⟨2, ![1, 64]⟩
abbrev S100000x128 : Shape := ⟨2, ![100000, 128]⟩
abbrev S100000 : Shape := ⟨1, ![100000]⟩
abbrev S100000x1 : Shape := ⟨2, ![100000, 1]⟩

abbrev nBuf : Space → Nat
  | .hbm => 93
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S144x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S1600000x144, .f32⟩
  | .hbm, ⟨36, _⟩ => ⟨S1600000x64, .f32⟩
  | .hbm, ⟨37, _⟩ => ⟨S1x64, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S1600000x64, .f32⟩
  | .hbm, ⟨42, _⟩ => ⟨S1600000x64, .f32⟩
  | .hbm, ⟨43, _⟩ => ⟨S1600000x64, .f32⟩
  | .hbm, ⟨44, _⟩ => ⟨S1x64, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S100000x128, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000, .f32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x1, .f32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_cst : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x16_S1600000x144_d1 : Shape.Concatenates [S1600000x64, S1600000x64, S1600000x16] S1600000x144 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x144_S144x64_S1600000x64_1_0_0_1_n_n_wf : DotDims.WF S1600000x144 S144x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x144_S144x64_S1600000x64_1_0_0_1_n_n : DotDims S1600000x144 S144x64 S1600000x64 where
  lhsContracting := [1]
  rhsContracting := [0]
  lhsNonContracting := [0]
  rhsNonContracting := [1]
  lhsBatch := []
  rhsBatch := []
  wf := dot_S1600000x144_S144x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  One round of message passing on a graph with 100000 nodes (64 features each) and 1600000 edges
  (16 features each), written row by row over the extended reals.

  * An edge's message is a two-layer perceptron of the row [h_dst | h_src | e] (144 entries):
    `mlp x W₁ b₁ W₂ b₂ j = ∑ k, max (∑ l, x l · W₁ l k + b₁ k) 0 · W₂ k j + b₂ j`.
  * A node's new state is the layer normalisation (mean and variance over its 64 features, the
    variance shifted by a small constant before the reciprocal square root, then a scale and a
    shift per feature) of `h + mlp [h | a]`, where `a` is the sum of the messages that arrive
    at the node.

  Float constants stay as the words both programs print (the same word on both sides is never
  evaluated): zero, sixty-four and the variance shift.
-/
import Idealize.ShloMosaic.PureOps.Ideal
import Idealize.ShloMosaic.Lib.ValueIdx

noncomputable section

namespace Cert.Mpnn

open Idealize.ShloMosaic Idealize.ShloMosaic.ValueIdx

/-- Three rows of 64, 64 and 16 entries laid side by side. -/
def cat3 (a b : Fin 64 → EReal) (c : Fin 16 → EReal) (l : Fin 144) : EReal :=
  if h : l.val < 64 then a ⟨l.val, h⟩
  else if h2 : l.val < 128 then b ⟨l.val - 64, by omega⟩
  else c ⟨l.val - 128, by omega⟩

/-- Two rows of 64 entries laid side by side. -/
def cat2 (a b : Fin 64 → EReal) (l : Fin 128) : EReal :=
  if h : l.val < 64 then a ⟨l.val, h⟩ else b ⟨l.val - 64, by omega⟩

/-- An affine map into 64 features: `x · W + b`. -/
def dense {K : Nat} (x : Fin K → EReal) (w : Fin K → Fin 64 → EReal) (b : Fin 64 → EReal) (j : Fin 64) : EReal :=
  (∑ k : Fin K, x k * w k j) + b j

/-- Two affine maps with a rectifier (the maximum with zero) between them. -/
def mlp {K : Nat} (x : Fin K → EReal) (w1 : Fin K → Fin 64 → EReal) (b1 : Fin 64 → EReal)
    (w2 : Fin 64 → Fin 64 → EReal) (b2 : Fin 64 → EReal) (j : Fin 64) : EReal :=
  dense (fun k => max (dense x w1 b1 k) (Ideal.ofBits .f32 0x00000000#32)) w2 b2 j

/-- The mean of a row of 64: its sum divided by sixty-four. -/
def mean (x : Fin 64 → EReal) : EReal := Ideal.div (∑ k : Fin 64, x k) (Ideal.ofBits .f32 0x42800000#32)

/-- Layer normalisation of a row of 64: centred, scaled by the reciprocal square root of the
    shifted variance, then by `g`, and shifted by `b`. -/
def lnorm (x g b : Fin 64 → EReal) (j : Fin 64) : EReal :=
  (x j - mean x)
      * Ideal.rsqrt (Ideal.div (∑ k : Fin 64, (x k - mean x) * (x k - mean x)) (Ideal.ofBits .f32 0x42800000#32)
          + Ideal.ofBits .f32 0x3727C5AC#32)
      * g j
    + b j

/-- Every edge's message: the perceptron of the edge's row [h_dst | h_src | e]. -/
def msgArr (hd hs : (⟨2, ![1600000, 64]⟩ : Shape).Idx → EReal) (ef : (⟨2, ![1600000, 16]⟩ : Shape).Idx → EReal)
    (w1 : Fin 144 → Fin 64 → EReal) (b1 : Fin 64 → EReal) (w2 : Fin 64 → Fin 64 → EReal) (b2 : Fin 64 → EReal) :
    (⟨2, ![1600000, 64]⟩ : Shape).Idx → EReal := fun i =>
  mlp (cat3 (fun q => hd (ix2 (⟨(i 0).val, idx2_lt0 i⟩ : Fin 1600000) q))
            (fun q => hs (ix2 (⟨(i 0).val, idx2_lt0 i⟩ : Fin 1600000) q))
            (fun q => ef (ix2 (⟨(i 0).val, idx2_lt0 i⟩ : Fin 1600000) q)))
    w1 b1 w2 b2 ⟨(i 1).val, idx2_lt1 i⟩

/-- Every node's new state: the layer normalisation of `h + mlp [h | a]`. -/
def updArr (nf agg : (⟨2, ![100000, 64]⟩ : Shape).Idx → EReal)
    (w1 : Fin 128 → Fin 64 → EReal) (b1 : Fin 64 → EReal) (w2 : Fin 64 → Fin 64 → EReal) (b2 : Fin 64 → EReal)
    (g b : Fin 64 → EReal) : (⟨2, ![100000, 64]⟩ : Shape).Idx → EReal := fun i =>
  lnorm (fun q => nf (ix2 (⟨(i 0).val, idx2_lt0 i⟩ : Fin 100000) q)
            + mlp (cat2 (fun r => nf (ix2 (⟨(i 0).val, idx2_lt0 i⟩ : Fin 100000) r))
                        (fun r => agg (ix2 (⟨(i 0).val, idx2_lt0 i⟩ : Fin 100000) r))) w1 b1 w2 b2 q)
    g b ⟨(i 1).val, idx2_lt1 i⟩

end Cert.Mpnn

end
-- ==== Proof.Concat.lean ====
/-
  Rows laid side by side, read at an index: a concatenation along the column axis of arrays with the
  same number of rows reads, at row `p` and column `l`, the piece whose column span holds `l`, at
  row `p` and at `l` less the widths of the pieces before it.
-/
import Idealize.ShloMosaic.Lib.Pipeline.Value
import proofs.«140069_j13709535609413_1_alg».proof.Proof.Spec

noncomputable section

namespace Cert.Mpnn

open Idealize.ShloMosaic Idealize.ShloMosaic.ValueIdx

/-- Widths 64, 64 and 16: column `l` of the joined row is `cat3` of the three rows. -/
theorem concat3_apply {R : Nat} (x y : (⟨2, ![R, 64]⟩ : Shape).Idx → EReal) (z : (⟨2, ![R, 16]⟩ : Shape).Idx → EReal)
    (h : Shape.Concatenates [(⟨2, ![R, 64]⟩ : Shape), ⟨2, ![R, 64]⟩, ⟨2, ![R, 16]⟩] ⟨2, ![R, 144]⟩ 1)
    (p : Fin R) (l : Fin 144) :
    concatenate (⟨2, ![R, 144]⟩ : Shape) 1 [⟨⟨2, ![R, 64]⟩, x⟩, ⟨⟨2, ![R, 64]⟩, y⟩, ⟨⟨2, ![R, 16]⟩, z⟩] h (ix2 p l)
      = cat3 (fun q => x (ix2 p q)) (fun q => y (ix2 p q)) (fun q => z (ix2 p q)) l := by
  unfold cat3
  split
  · rename_i h1
    exact concatenate_apply_piece (t := ⟨2, ![R, 144]⟩) (1 : Fin 2) [⟨⟨2, ![R, 64]⟩, x⟩, ⟨⟨2, ![R, 64]⟩, y⟩, ⟨⟨2, ![R, 16]⟩, z⟩] h (ix2 p l) 0 (by simp) ⟨2, ![R, 64]⟩ x rfl rfl 0 rfl (ix2 p ⟨l.val, h1⟩)
      (fun b hb => by match b with
        | ⟨0, _⟩ => rfl
        | ⟨1, _⟩ => exact absurd rfl hb)
      (by show 0 + l.val = l.val; omega)
  · rename_i h1
    split
    · rename_i h2
      exact concatenate_apply_piece (t := ⟨2, ![R, 144]⟩) (1 : Fin 2) [⟨⟨2, ![R, 64]⟩, x⟩, ⟨⟨2, ![R, 64]⟩, y⟩, ⟨⟨2, ![R, 16]⟩, z⟩] h (ix2 p l) 1 (by simp) ⟨2, ![R, 64]⟩ y rfl rfl 64 rfl (ix2 p ⟨l.val - 64, by omega⟩)
        (fun b hb => by match b with
          | ⟨0, _⟩ => rfl
          | ⟨1, _⟩ => exact absurd rfl hb)
        (by show 64 + (l.val - 64) = l.val; omega)
    · rename_i h2
      exact concatenate_apply_piece (t := ⟨2, ![R, 144]⟩) (1 : Fin 2) [⟨⟨2, ![R, 64]⟩, x⟩, ⟨⟨2, ![R, 64]⟩, y⟩, ⟨⟨2, ![R, 16]⟩, z⟩] h (ix2 p l) 2 (by simp) ⟨2, ![R, 16]⟩ z rfl rfl 128 rfl (ix2 p ⟨l.val - 128, by omega⟩)
        (fun b hb => by match b with
          | ⟨0, _⟩ => rfl
          | ⟨1, _⟩ => exact absurd rfl hb)
        (by show 128 + (l.val - 128) = l.val; omega)

/-- Widths 64 and 64: column `l` of the joined row is `cat2` of the two rows. -/
theorem concat2_apply {R : Nat} (x y : (⟨2, ![R, 64]⟩ : Shape).Idx → EReal)
    (h : Shape.Concatenates [(⟨2, ![R, 64]⟩ : Shape), ⟨2, ![R, 64]⟩] ⟨2, ![R, 128]⟩ 1)
    (p : Fin R) (l : Fin 128) :
    concatenate (⟨2, ![R, 128]⟩ : Shape) 1 [⟨⟨2, ![R, 64]⟩, x⟩, ⟨⟨2, ![R, 64]⟩, y⟩] h (ix2 p l)
      = cat2 (fun q => x (ix2 p q)) (fun q => y (ix2 p q)) l := by
  unfold cat2
  split
  · rename_i h1
    exact concatenate_apply_piece (t := ⟨2, ![R, 128]⟩) (1 : Fin 2) [⟨⟨2, ![R, 64]⟩, x⟩, ⟨⟨2, ![R, 64]⟩, y⟩] h (ix2 p l) 0 (by simp) ⟨2, ![R, 64]⟩ x rfl rfl 0 rfl (ix2 p ⟨l.val, h1⟩)
      (fun b hb => by match b with
        | ⟨0, _⟩ => rfl
        | ⟨1, _⟩ => exact absurd rfl hb)
      (by show 0 + l.val = l.val; omega)
  · rename_i h1
    exact concatenate_apply_piece (t := ⟨2, ![R, 128]⟩) (1 : Fin 2) [⟨⟨2, ![R, 64]⟩, x⟩, ⟨⟨2, ![R, 64]⟩, y⟩] h (ix2 p l) 1 (by simp) ⟨2, ![R, 64]⟩ y rfl rfl 64 rfl (ix2 p ⟨l.val - 64, by omega⟩)
      (fun b hb => by match b with
        | ⟨0, _⟩ => rfl
        | ⟨1, _⟩ => exact absurd rfl hb)
      (by show 64 + (l.val - 64) = l.val; omega)

end Cert.Mpnn

end
-- ==== Proof.KernelPay.lean ====
/-
  The two kernel bodies' stored values, read at one entry of the stored block.

  The message body stores a two-layer perceptron of the row [h_dst | h_src | e]; the update body stores the
  layer normalisation of the row h + perceptron of [h | a]. Each product of blocks is read as the sum over the
  shared axis, each lane sum as the sum over the 64 lanes, and each broadcast, view and concatenation at the
  one entry of its operand that it shows.
-/
import proofs.«140069_j13709535609413_1_alg».proof.Proof.Gen.KernelIdeal.Skeleton
import proofs.«140069_j13709535609413_1_alg».proof.Proof.Concat
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Cert.KernelIdeal Cert.KernelIdeal.Gen Cert.Mpnn Idealize.ShloMosaic Idealize.ShloMosaic.ValueIdx

/-! The product of a [8000,144] block with a [144,64] block, read at one entry. -/

theorem lhs_m8000x144_0 (i : S8000x64.Idx) (q : dot_S8000x144_S144x64_S8000x64_1_0_0_1_n_n.contr.Idx) :
    (dot_S8000x144_S144x64_S8000x64_1_0_0_1_n_n.lhsIdx i q 0).val = (i 0).val := by
  unfold DotDims.lhsIdx
  rw [dif_neg (show ¬(0 : Fin S8000x144.rank) ∈ dot_S8000x144_S144x64_S8000x64_1_0_0_1_n_n.lhsBatch by decide), dif_pos (show (0 : Fin S8000x144.rank) ∈ dot_S8000x144_S144x64_S8000x64_1_0_0_1_n_n.lhsNonContracting by decide)]
  rfl
theorem lhs_m8000x144_1 (i : S8000x64.Idx) (q : dot_S8000x144_S144x64_S8000x64_1_0_0_1_n_n.contr.Idx) :
    (dot_S8000x144_S144x64_S8000x64_1_0_0_1_n_n.lhsIdx i q 1).val = (q ⟨0, by decide⟩).val :=
  dot_S8000x144_S144x64_S8000x64_1_0_0_1_n_n.lhsIdx_val_of_single rfl i q
theorem rhs_m8000x144_0 (i : S8000x64.Idx) (q : dot_S8000x144_S144x64_S8000x64_1_0_0_1_n_n.contr.Idx) :
    (dot_S8000x144_S144x64_S8000x64_1_0_0_1_n_n.rhsIdx i q 0).val = (q ⟨0, by decide⟩).val :=
  dot_S8000x144_S144x64_S8000x64_1_0_0_1_n_n.rhsIdx_val_of_single rfl i q
theorem rhs_m8000x144_1 (i : S8000x64.Idx) (q : dot_S8000x144_S144x64_S8000x64_1_0_0_1_n_n.contr.Idx) :
    (dot_S8000x144_S144x64_S8000x64_1_0_0_1_n_n.rhsIdx i q 1).val = (i 1).val := by
  unfold DotDims.rhsIdx
  rw [dif_neg (show ¬(1 : Fin S144x64.rank) ∈ dot_S8000x144_S144x64_S8000x64_1_0_0_1_n_n.rhsBatch by decide), dif_pos (show (1 : Fin S144x64.rank) ∈ dot_S8000x144_S144x64_S8000x64_1_0_0_1_n_n.rhsNonContracting by decide)]
  rfl

/-- Entry (p, q) of the product into the zero block: the sum over the shared axis of the factors' products. -/
theorem matmul_m8000x144_apply {φ₁ φ₂ : FTy} (l : FVec Ideal S8000x144 φ₁) (r : FVec Ideal S144x64 φ₂) (p : Fin 8000) (q : Fin 64) :
    (matmul dot_S8000x144_S144x64_S8000x64_1_0_0_1_n_n none l r (constant S8000x64 .f32 0x00000000#32)) (ix2 p q)
      = ∑ k : Fin 144, l (ix2 p k) * r (ix2 k q) := by
  simp only [matmul]
  rw [Ideal.matmul_constant_zero_apply, ← Equiv.sum_comp (contrEquiv1 dot_S8000x144_S144x64_S8000x64_1_0_0_1_n_n 144 rfl rfl).symm]
  refine Finset.sum_congr rfl fun k _ => ?_
  have hk := contrEquiv1_symm_val dot_S8000x144_S144x64_S8000x64_1_0_0_1_n_n 144 rfl rfl k
  have el : dot_S8000x144_S144x64_S8000x64_1_0_0_1_n_n.lhsIdx (ix2 p q) ((contrEquiv1 dot_S8000x144_S144x64_S8000x64_1_0_0_1_n_n 144 rfl rfl).symm k) = ix2 p k := funext fun a => Fin.ext (by
    match a with
    | ⟨0, _⟩ => exact lhs_m8000x144_0 _ _
    | ⟨1, _⟩ => exact (lhs_m8000x144_1 _ _).trans hk)
  have er : dot_S8000x144_S144x64_S8000x64_1_0_0_1_n_n.rhsIdx (ix2 p q) ((contrEquiv1 dot_S8000x144_S144x64_S8000x64_1_0_0_1_n_n 144 rfl rfl).symm k) = ix2 k q := funext fun a => Fin.ext (by
    match a with
    | ⟨0, _⟩ => exact (rhs_m8000x144_0 _ _).trans hk
    | ⟨1, _⟩ => exact rhs_m8000x144_1 _ _)
  rw [el, er]

/-! The product of a [8000,64] block with a [64,64] block, read at one entry. -/

theorem lhs_m8000x64_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_m8000x64_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_m8000x64_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_m8000x64_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- Entry (p, q) of the product into the zero block: the sum over the shared axis of the factors' products. -/
theorem matmul_m8000x64_apply {φ₁ φ₂ : FTy} (l : FVec Ideal S8000x64 φ₁) (r : FVec Ideal S64x64 φ₂) (p : Fin 8000) (q : Fin 64) :
    (matmul dot_S8000x64_S64x64_S8000x64_1_0_0_1_n_n none l r (constant S8000x64 .f32 0x00000000#32)) (ix2 p q)
      = ∑ k : Fin 64, l (ix2 p k) * r (ix2 k q) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact lhs_m8000x64_0 _ _
    | ⟨1, _⟩ => exact (lhs_m8000x64_1 _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (rhs_m8000x64_0 _ _).trans hk
    | ⟨1, _⟩ => exact rhs_m8000x64_1 _ _)
  rw [el, er]

/-! The product of a [5000,128] block with a [128,64] block, read at one entry. -/

theorem lhs_m5000x128_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_m5000x128_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_m5000x128_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_m5000x128_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of the product into the zero block: the sum over the shared axis of the factors' products. -/
theorem matmul_m5000x128_apply {φ₁ φ₂ : FTy} (l : FVec Ideal S5000x128 φ₁) (r : FVec Ideal S128x64 φ₂) (p : Fin 5000) (q : Fin 64) :
    (matmul dot_S5000x128_S128x64_S5000x64_1_0_0_1_n_n none l r (constant S5000x64 .f32 0x00000000#32)) (ix2 p q)
      = ∑ k : Fin 128, l (ix2 p k) * r (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_m5000x128_0 _ _
    | ⟨1, _⟩ => exact (lhs_m5000x128_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_m5000x128_0 _ _).trans hk
    | ⟨1, _⟩ => exact rhs_m5000x128_1 _ _)
  rw [el, er]

/-! The product of a [5000,64] block with a [64,64] block, read at one entry. -/

theorem lhs_m5000x64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_m5000x64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_m5000x64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_m5000x64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the product into the zero block: the sum over the shared axis of the factors' products. -/
theorem matmul_m5000x64_apply {φ₁ φ₂ : FTy} (l : FVec Ideal S5000x64 φ₁) (r : FVec Ideal S64x64 φ₂) (p : Fin 5000) (q : Fin 64) :
    (matmul dot_S5000x64_S64x64_S5000x64_1_0_0_1_n_n none l r (constant S5000x64 .f32 0x00000000#32)) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_m5000x64_0 _ _
    | ⟨1, _⟩ => exact (lhs_m5000x64_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_m5000x64_0 _ _).trans hk
    | ⟨1, _⟩ => exact rhs_m5000x64_1 _ _)
  rw [el, er]

/-! Small layout readings at an entry given by its coordinates. -/

section Layout
variable {α : Type}

/-- A column [a,1] spread over [a,b] reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] viewed as a column [a,1] reads, at (i, u), the vector's entry i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The sum along the 64 lanes of a [5000,64] block, read at row p. -/
theorem laneSum_apply (src : FVec Ideal S5000x64 .f32) (hφ : FKind.Formats .f32)
    (hacc : (0x00000000#32 : BitVec 32) = 0x00000000#32) (p : Fin 5000) :
    multiReduction .add [1] S5000 src 0x00000000#32 reduces_S5000x64_S5000 hφ hacc (ix1 p)
      = ∑ k : Fin 64, src (ix2 p k) := by
  refine (Ideal.multiReduction_add_single src 0x00000000#32 reduces_S5000x64_S5000 hφ hacc (ix1 p)).trans ?_
  refine Finset.sum_congr rfl fun k _ => congrArg src ?_
  funext a
  match a with
  | ⟨0, _⟩ => rfl
  | ⟨1, _⟩ => rfl

/-! The message body. -/

theorem pay0 (x0 x1 : Vec Ideal S8000x64 .f32) (x2 : Vec Ideal S8000x16 .f32) (x3 : Vec Ideal S144x64 .bf16)
    (x4 : Vec Ideal S1x64 .f32) (x5 : Vec Ideal S64x64 .bf16) (x6 : Vec Ideal S1x64 .f32) (p : Fin 8000) (q : Fin 64) :
    k0_pay1 (F := Ideal) x0 x1 x2 x3 x4 x5 x6 (ix2 p q)
      = mlp (cat3 (fun l => x0 (ix2 p l)) (fun l => x1 (ix2 p l)) (fun l => x2 (ix2 p l)))
          (fun l k => x3 (ix2 l k)) (fun k => x4 (ix2 (0 : Fin 1) k)) (fun k j => x5 (ix2 k j))
          (fun j => x6 (ix2 (0 : Fin 1) j)) q := by
  unfold k0_pay1
  simp only [shapeCast_self, addf_apply, maximumf_apply, truncf_apply, broadcast_apply,
    matmul_m8000x64_apply, matmul_m8000x144_apply, broadcastTo_1b_ab_apply, concat3_apply]
  rfl

/-! The update body, value by value. -/

/-- The reciprocal square root of a block reads entry by entry. -/
theorem rsqrt_apply {s : Shape} {φ : FTy} (a : FVec Ideal s φ) (i : s.Idx) : rsqrt a i = Ideal.rsqrt (a i) := rfl

/-- A block's row mean as the body takes it: the lane sum, viewed as a column, divided by the splat of sixty-four. -/
theorem rowMean_apply (y : FVec Ideal S5000x64 .f32) (p : Fin 5000) (u : Fin 1) :
    divf (shapeCast S5000x1 (multiReduction .add [1] S5000 y 0x00000000#32 reduces_S5000x64_S5000 (.inl rfl) rfl)
            shapeCasts_S5000_S5000x1)
         (broadcast S5000x1 (Scalar.ofBits (F := Ideal) .f32 0x42800000#32)) (ix2 p u)
      = mean (fun r => y (ix2 p r)) :=
  congrArg (fun t => Ideal.div t (Ideal.ofBits .f32 0x42800000#32))
    ((shapeCast_a_a1_apply _ shapeCasts_S5000_S5000x1 p u).trans (laneSum_apply y _ _ p))

/-- The row before normalisation: the node's state plus the perceptron of [state | aggregate]. -/
theorem pay2_apply (x0 x1 : Vec Ideal S5000x64 .f32) (x2 : Vec Ideal S128x64 .bf16) (x3 : Vec Ideal S1x64 .f32)
    (x4 : Vec Ideal S64x64 .bf16) (x5 : Vec Ideal S1x64 .f32) (p : Fin 5000) (r : Fin 64) :
    k1_pay2 (F := Ideal) x0 x1 x2 x3 x4 x5 (ix2 p r)
      = x0 (ix2 p r)
        + mlp (cat2 (fun s => x0 (ix2 p s)) (fun s => x1 (ix2 p s))) (fun l k => x2 (ix2 l k))
            (fun k => x3 (ix2 (0 : Fin 1) k)) (fun k j => x4 (ix2 k j)) (fun j => x5 (ix2 (0 : Fin 1) j)) r := by
  unfold k1_pay2
  simp only [shapeCast_self, addf_apply, maximumf_apply, truncf_apply, broadcast_apply,
    matmul_m5000x64_apply, matmul_m5000x128_apply, broadcastTo_1b_ab_apply, concat2_apply]
  rfl

/-- The column of row means. -/
theorem pay3_apply (x0 x1 : Vec Ideal S5000x64 .f32) (x2 : Vec Ideal S128x64 .bf16) (x3 : Vec Ideal S1x64 .f32)
    (x4 : Vec Ideal S64x64 .bf16) (x5 : Vec Ideal S1x64 .f32) (p : Fin 5000) (u : Fin 1) :
    k1_pay3 (F := Ideal) x0 x1 x2 x3 x4 x5 (ix2 p u)
      = mean (fun r => k1_pay2 (F := Ideal) x0 x1 x2 x3 x4 x5 (ix2 p r)) :=
  rowMean_apply (k1_pay2 (F := Ideal) x0 x1 x2 x3 x4 x5) p u

/-- The centred row. -/
theorem pay4_apply (x0 x1 : Vec Ideal S5000x64 .f32) (x2 : Vec Ideal S128x64 .bf16) (x3 : Vec Ideal S1x64 .f32)
    (x4 : Vec Ideal S64x64 .bf16) (x5 : Vec Ideal S1x64 .f32) (p : Fin 5000) (q : Fin 64) :
    k1_pay4 (F := Ideal) x0 x1 x2 x3 x4 x5 (ix2 p q)
      = k1_pay2 (F := Ideal) x0 x1 x2 x3 x4 x5 (ix2 p q)
        - mean (fun r => k1_pay2 (F := Ideal) x0 x1 x2 x3 x4 x5 (ix2 p r)) :=
  congrArg (fun t => k1_pay2 (F := Ideal) x0 x1 x2 x3 x4 x5 (ix2 p q) - t)
    ((broadcastTo_a1_ab_apply (k1_pay3 (F := Ideal) x0 x1 x2 x3 x4 x5) broadcasts_S5000x1_S5000x64 p q).trans
      (pay3_apply x0 x1 x2 x3 x4 x5 p 0))

/-- The column of reciprocal square roots of the shifted variances. -/
theorem pay5_apply (x0 x1 : Vec Ideal S5000x64 .f32) (x2 : Vec Ideal S128x64 .bf16) (x3 : Vec Ideal S1x64 .f32)
    (x4 : Vec Ideal S64x64 .bf16) (x5 : Vec Ideal S1x64 .f32) (p : Fin 5000) (u : Fin 1) :
    k1_pay5 (F := Ideal) x0 x1 x2 x3 x4 x5 (ix2 p u)
      = Ideal.rsqrt (Ideal.div (∑ k : Fin 64, k1_pay4 (F := Ideal) x0 x1 x2 x3 x4 x5 (ix2 p k)
                                               * k1_pay4 (F := Ideal) x0 x1 x2 x3 x4 x5 (ix2 p k))
                        (Ideal.ofBits .f32 0x42800000#32)
                      + Ideal.ofBits .f32 0x3727C5AC#32) :=
  congrArg (fun t => Ideal.rsqrt (t + Ideal.ofBits .f32 0x3727C5AC#32))
    (rowMean_apply (mulf (k1_pay4 (F := Ideal) x0 x1 x2 x3 x4 x5) (k1_pay4 (F := Ideal) x0 x1 x2 x3 x4 x5)) p u)

theorem pay1 (x0 x1 : Vec Ideal S5000x64 .f32) (x2 : Vec Ideal S128x64 .bf16) (x3 : Vec Ideal S1x64 .f32)
    (x4 : Vec Ideal S64x64 .bf16) (x5 x6 x7 : Vec Ideal S1x64 .f32) (p : Fin 5000) (q : Fin 64) :
    k1_pay1 (F := Ideal) (k1_pay4 x0 x1 x2 x3 x4 x5) (k1_pay5 x0 x1 x2 x3 x4 x5) x6 x7 (ix2 p q)
      = lnorm (fun r => x0 (ix2 p r)
                + mlp (cat2 (fun s => x0 (ix2 p s)) (fun s => x1 (ix2 p s))) (fun l k => x2 (ix2 l k))
                    (fun k => x3 (ix2 (0 : Fin 1) k)) (fun k j => x4 (ix2 k j)) (fun j => x5 (ix2 (0 : Fin 1) j)) r)
          (fun j => x6 (ix2 (0 : Fin 1) j)) (fun j => x7 (ix2 (0 : Fin 1) j)) q := by
  unfold k1_pay1
  simp only [shapeCast_self, addf_apply, mulf_apply, broadcastTo_1b_ab_apply, broadcastTo_a1_ab_apply,
    pay5_apply, pay4_apply, pay2_apply]
  rfl

end Cert.KernelIdeal.Pay

end
-- ==== Proof.KernelBlocks.lean ====
/-
  From blocks to arrays: what each kernel's output array holds after its grid has run, as one function of the
  arrays the kernel was entered with. Per kernel: the index maps of its windows related once over the grid,
  each loaded block read as rows (or as the whole) of its array, the block a grid point writes back as the
  same block of the whole-array function, and the blocks' cover of the array by rows.
-/
import proofs.«140069_j13709535609413_1_alg».proof.Proof.Gen.KernelIdeal.Frame
import proofs.«140069_j13709535609413_1_alg».proof.Proof.KernelPay

set_option maxRecDepth 16384

noncomputable section

namespace Cert.KernelIdeal.Blocks

open Cert.KernelIdeal Cert.KernelIdeal.Gen Cert.KernelIdeal.Pay Cert.Mpnn Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The message kernel: 200 blocks of 8000 edges -/

/-- The zero offset of a block that is read whole. -/
theorem hz : (![0, 0] : Fin 2 → Nat) = fun _ => 0 := funext fun a => by fin_cases a <;> rfl

/-- The message kernel's index maps over its 200 grid points: the three row windows move with the
    output's rows, nothing moves along the features, the weights and biases stay at block zero. -/
theorem idx0 : ∀ t : Fin cfg0.N,
    win0_0.index t (0 : Fin 2) = win0_7.index t (0 : Fin 2)
    ∧ win0_1.index t (0 : Fin 2) = win0_7.index t (0 : Fin 2)
    ∧ win0_2.index t (0 : Fin 2) = win0_7.index t (0 : Fin 2)
    ∧ win0_0.index t (1 : Fin 2) = 0 ∧ win0_1.index t (1 : Fin 2) = 0 ∧ win0_2.index t (1 : Fin 2) = 0
    ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val :=
  (by decide +kernel : ∀ t : Fin grid0.N, _)

/-- The value stored at row `p`, feature `q` of a block is the message of row `r` of the arrays, once each
    loaded block is known to hold the rows and the weights the message reads. -/
theorem msg_point (x0 x1 : Vec Ideal S8000x64 .f32) (x2 : Vec Ideal S8000x16 .f32) (x3 : Vec Ideal S144x64 .bf16)
    (x4 : Vec Ideal S1x64 .f32) (x5 : Vec Ideal S64x64 .bf16) (x6 : Vec Ideal S1x64 .f32)
    (A0 A1 : (⟨2, ![1600000, 64]⟩ : Shape).Idx → EReal) (A2 : (⟨2, ![1600000, 16]⟩ : Shape).Idx → EReal)
    (w1 : Fin 144 → Fin 64 → EReal) (b1 : Fin 64 → EReal) (w2 : Fin 64 → Fin 64 → EReal) (b2 : Fin 64 → EReal)
    (r : Fin 1600000) (p : Fin 8000) (q : Fin 64)
    (h0 : ∀ l, x0 (ix2 p l) = A0 (ix2 r l)) (h1 : ∀ l, x1 (ix2 p l) = A1 (ix2 r l))
    (h2 : ∀ l, x2 (ix2 p l) = A2 (ix2 r l)) (h3 : ∀ l k, x3 (ix2 l k) = w1 l k)
    (h4 : ∀ k, x4 (ix2 (0 : Fin 1) k) = b1 k) (h5 : ∀ k j, x5 (ix2 k j) = w2 k j)
    (h6 : ∀ j, x6 (ix2 (0 : Fin 1) j) = b2 j) :
    k0_pay1 (F := Ideal) x0 x1 x2 x3 x4 x5 x6 (ix2 p q) = msgArr A0 A1 A2 w1 b1 w2 b2 (ix2 r q) := by
  rw [pay0]
  have e0 : (fun l => x0 (ix2 p l)) = fun l => A0 (ix2 r l) := funext h0
  have e1 : (fun l => x1 (ix2 p l)) = fun l => A1 (ix2 r l) := funext h1
  have e2 : (fun l => x2 (ix2 p l)) = fun l => A2 (ix2 r l) := funext h2
  have e3 : (fun l k => x3 (ix2 l k)) = w1 := funext fun l => funext fun k => h3 l k
  have e4 : (fun k => x4 (ix2 (0 : Fin 1) k)) = b1 := funext h4
  have e5 : (fun k j => x5 (ix2 k j)) = w2 := funext fun k => funext fun j => h5 k j
  have e6 : (fun j => x6 (ix2 (0 : Fin 1) j)) = b2 := funext h6
  rw [e0, e1, e2, e3, e4, e5, e6]
  rfl

/-- A row window's block at point `t` holds the rows `8000 · t + …` of its array. -/
theorem rows0_0 (c : Dev nD) (t : Fin cfg0.N) (y : S8000x64.Idx) (k : S1600000x64.Idx)
    (hk0 : (k 0).val = win0_7.index t (0 : Fin 2) * 8000 + (y 0).val) (hk1 : (k 1).val = (y 1).val) :
    (iblk0 (F := Ideal) V c 0 t : Vec Ideal S8000x64 .f32) y = (V c main_v17 : S1600000x64.Idx → EReal) k := by
  obtain ⟨e0, e1, e2, f0, f1, f2, f7, -⟩ := idx0 t
  show (V c main_v17 : S1600000x64.Idx → EReal) (((cfg0.win 0).blk t).view.emb y) = _
  congr 1
  funext a
  apply Fin.ext
  match a with
  | ⟨0, _⟩ => show win0_0.index t (0 : Fin 2) * 8000 + 1 * (y 0).val = (k 0).val; omega
  | ⟨1, _⟩ => show win0_0.index t (1 : Fin 2) * 64 + 1 * (y 1).val = (k 1).val; omega

theorem rows0_1 (c : Dev nD) (t : Fin cfg0.N) (y : S8000x64.Idx) (k : S1600000x64.Idx)
    (hk0 : (k 0).val = win0_7.index t (0 : Fin 2) * 8000 + (y 0).val) (hk1 : (k 1).val = (y 1).val) :
    (iblk0 (F := Ideal) V c 1 t : Vec Ideal S8000x64 .f32) y = (V c main_v10 : S1600000x64.Idx → EReal) k := by
  obtain ⟨e0, e1, e2, f0, f1, f2, f7, -⟩ := idx0 t
  show (V c main_v10 : S1600000x64.Idx → EReal) (((cfg0.win 1).blk t).view.emb y) = _
  congr 1
  funext a
  apply Fin.ext
  match a with
  | ⟨0, _⟩ => show win0_1.index t (0 : Fin 2) * 8000 + 1 * (y 0).val = (k 0).val; omega
  | ⟨1, _⟩ => show win0_1.index t (1 : Fin 2) * 64 + 1 * (y 1).val = (k 1).val; omega

theorem rows0_2 (c : Dev nD) (t : Fin cfg0.N) (y : S8000x16.Idx) (k : S1600000x16.Idx)
    (hk0 : (k 0).val = win0_7.index t (0 : Fin 2) * 8000 + (y 0).val) (hk1 : (k 1).val = (y 1).val) :
    (iblk0 (F := Ideal) V c 2 t : Vec Ideal S8000x16 .f32) y = (V c main_arg2 : S1600000x16.Idx → EReal) k := by
  obtain ⟨e0, e1, e2, f0, f1, f2, f7, -⟩ := idx0 t
  show (V c main_arg2 : S1600000x16.Idx → EReal) (((cfg0.win 2).blk t).view.emb y) = _
  congr 1
  funext a
  apply Fin.ext
  match a with
  | ⟨0, _⟩ => show win0_2.index t (0 : Fin 2) * 8000 + 1 * (y 0).val = (k 0).val; omega
  | ⟨1, _⟩ => show win0_2.index t (1 : Fin 2) * 16 + 1 * (y 1).val = (k 1).val; omega

/-- A weight or bias window's one block is its whole array. -/
theorem whole0_3 (c : Dev nD) (t : Fin cfg0.N) (y : S144x64.Idx) :
    (iblk0 (F := Ideal) V c 3 t : Vec Ideal S144x64 .bf16) y = (V c main_v20 : S144x64.Idx → EReal) y := by
  obtain ⟨-, -, -, -, -, -, -, g30, g31, g40, g41, g50, g51, g60, g61, -⟩ := idx0 t
  show (V c main_v20 : S144x64.Idx → EReal) (((cfg0.win 3).blk t).view.emb y) = _
  congr 1
  funext a
  apply Fin.ext
  match a with
  | ⟨0, _⟩ => show win0_3.index t (0 : Fin 2) * 144 + 1 * (y 0).val = (y 0).val; omega
  | ⟨1, _⟩ => show win0_3.index t (1 : Fin 2) * 64 + 1 * (y 1).val = (y 1).val; omega

theorem whole0_4 (c : Dev nD) (t : Fin cfg0.N) (y : S1x64.Idx) :
    (iblk0 (F := Ideal) V c 4 t : Vec Ideal S1x64 .f32) y = (V c main_v18 : S1x64.Idx → EReal) y := by
  obtain ⟨-, -, -, -, -, -, -, g30, g31, g40, g41, g50, g51, g60, g61, -⟩ := idx0 t
  show (V c main_v18 : S1x64.Idx → EReal) (((cfg0.win 4).blk t).view.emb y) = _
  congr 1
  funext a
  apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

theorem whole0_5 (c : Dev nD) (t : Fin cfg0.N) (y : S64x64.Idx) :
    (iblk0 (F := Ideal) V c 5 t : Vec Ideal S64x64 .bf16) y = (V c main_v21 : S64x64.Idx → EReal) y := by
  obtain ⟨-, -, -, -, -, -, -, g30, g31, g40, g41, g50, g51, g60, g61, -⟩ := idx0 t
  show (V c main_v21 : S64x64.Idx → EReal) (((cfg0.win 5).blk t).view.emb y) = _
  congr 1
  funext a
  apply Fin.ext
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem whole0_6 (c : Dev nD) (t : Fin cfg0.N) (y : S1x64.Idx) :
    (iblk0 (F := Ideal) V c 6 t : Vec Ideal S1x64 .f32) y = (V c main_v19 : S1x64.Idx → EReal) y := by
  obtain ⟨-, -, -, -, -, -, -, g30, g31, g40, g41, g50, g51, g60, g61, -⟩ := idx0 t
  show (V c main_v19 : S1x64.Idx → EReal) (((cfg0.win 6).blk t).view.emb y) = _
  congr 1
  funext a
  apply Fin.ext
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- What point `t` writes back is block `t` of the message array of the arrays the kernel was entered with. -/
theorem flushed0_eq (c : Dev nD) (t : Fin cfg0.N) :
    (dat0 (F := Ideal) V c).flushed 7 t
      = ((cfg0.win 7).blk t).view.read (Elt Ideal)
          (msgArr (V c main_v17) (V c main_v10) (V c main_arg2)
            (fun l k => V c main_v20 (ix2 l k)) (fun k => V c main_v18 (ix2 (0 : Fin 1) k))
            (fun k j => V c main_v21 (ix2 k j)) (fun j => V c main_v19 (ix2 (0 : Fin 1) j))) := by
  show (cfg0.win 7).cut (grid0.coords t) ((dat0 V c).after 7 t) = _
  rw [after0_7]
  unfold out0_7
  rw [View.canon_unit_zero hz]
  simp only [View.ld_unit_zero (S := S8000x64) hz, View.ld_unit_zero (S := S8000x16) hz,
    View.ld_unit_zero (S := S144x64) hz, View.ld_unit_zero (S := S1x64) hz, View.ld_unit_zero (S := S64x64) hz]
  obtain ⟨-, -, -, -, -, -, f7, -, -, -, -, -, -, -, -, ht⟩ := idx0 t
  have hN : cfg0.N = 200 := N_0
  have htl : t.val < 200 := hN ▸ t.isLt
  funext j
  obtain ⟨p, q, rfl⟩ : ∃ (p : Fin 8000) (q : Fin 64), j = ix2 p q := ⟨j 0, j 1, eq_ix2 j⟩
  have hr : win0_7.index t (0 : Fin 2) * 8000 + p.val < 1600000 := by have := p.isLt; omega
  have hemb : ((cfg0.win 7).blk t).view.emb (ix2 p q)
      = (ix2 (⟨win0_7.index t (0 : Fin 2) * 8000 + p.val, hr⟩ : Fin 1600000) q : S1600000x64.Idx) := by
    funext a
    apply Fin.ext
    match a with
    | ⟨0, _⟩ => show win0_7.index t (0 : Fin 2) * 8000 + 1 * p.val = win0_7.index t (0 : Fin 2) * 8000 + p.val; omega
    | ⟨1, _⟩ => show win0_7.index t (1 : Fin 2) * 64 + 1 * q.val = q.val; omega
  rw [View.read_apply, hemb]
  refine msg_point (iblk0 V c 0 t) (iblk0 V c 1 t) (iblk0 V c 2 t) (iblk0 V c 3 t) (iblk0 V c 4 t) (iblk0 V c 5 t)
    (iblk0 V c 6 t) _ _ _ _ _ _ _ ⟨win0_7.index t (0 : Fin 2) * 8000 + p.val, hr⟩ p q ?_ ?_ ?_ ?_ ?_ ?_ ?_
  · intro l; exact rows0_0 V c t _ _ rfl rfl
  · intro l; exact rows0_1 V c t _ _ rfl rfl
  · intro l; exact rows0_2 V c t _ _ rfl rfl
  · intro l k; exact whole0_3 V c t _
  · intro k; exact whole0_4 V c t _
  · intro k j; exact whole0_5 V c t _
  · intro j; exact whole0_6 V c t _

/-- An index of the message array is in point `t`'s block iff each coordinate is in the block's range. -/
theorem mem_blk0 (t : Fin cfg0.N) (i : S1600000x64.Idx) :
    i ∈ ((cfg0.win 7).blk t).view.set ↔ ∀ a : Fin 2, win0_7.index t a * S8000x64.size a ≤ (i a).val ∧ (i a).val < win0_7.index t a * S8000x64.size a + S8000x64.size a := by
  show i ∈ ((View.whole main_v22).slice (win0_7.rect t)).set ↔ _
  rw [View.set_slice_whole, Rect.mem_set_unit]
  exact Iff.rfl

/-- After the 200 points the message array holds every edge's message. -/
theorem final0 (c : Dev nD) :
    (dat0 (F := Ideal) V c).arrAt 7 cfg0.N
      = msgArr (V c main_v17) (V c main_v10) (V c main_arg2)
          (fun l k => V c main_v20 (ix2 l k)) (fun k => V c main_v18 (ix2 (0 : Fin 1) k))
          (fun k j => V c main_v21 (ix2 k j)) (fun j => V c main_v19 (ix2 (0 : Fin 1) j)) := by
  refine (dat0 V c).arrAt_eq_of_cover 7 _ (fun t _ => flushed0_eq V c t) fun i => ?_
  have hN : cfg0.N = 200 := N_0
  have hi0 : (i 0).val < 1600000 := (i 0).isLt
  have hi1 : (i 1).val < 64 := (i 1).isLt
  have hlt : (i 0).val / 8000 < cfg0.N := by rw [hN]; omega
  refine ⟨⟨(i 0).val / 8000, hlt⟩, flush0_7 _, ?_⟩
  obtain ⟨-, -, -, -, -, -, f7, -, -, -, -, -, -, -, -, ht⟩ := idx0 ⟨(i 0).val / 8000, hlt⟩
  rw [mem_blk0]
  intro a
  match a with
  | ⟨0, _⟩ =>
    show win0_7.index ⟨(i 0).val / 8000, hlt⟩ (0 : Fin 2) * 8000 ≤ (i 0).val ∧ (i 0).val < win0_7.index ⟨(i 0).val / 8000, hlt⟩ (0 : Fin 2) * 8000 + 8000
    rw [ht]; show (i 0).val / 8000 * 8000 ≤ (i 0).val ∧ (i 0).val < (i 0).val / 8000 * 8000 + 8000; omega
  | ⟨1, _⟩ =>
    show win0_7.index ⟨(i 0).val / 8000, hlt⟩ (1 : Fin 2) * 64 ≤ (i 1).val ∧ (i 1).val < win0_7.index ⟨(i 0).val / 8000, hlt⟩ (1 : Fin 2) * 64 + 64
    rw [f7]; omega

/-! ## The update kernel: 20 blocks of 5000 nodes -/

/-- The update kernel's index maps over its 20 grid points: the two row windows move with the output's
    rows, nothing moves along the features, the weights, biases, scale and shift stay at block zero. -/
theorem idx1 : ∀ t : Fin cfg1.N,
    win1_0.index t (0 : Fin 2) = win1_8.index t (0 : Fin 2)
    ∧ win1_1.index t (0 : Fin 2) = win1_8.index t (0 : Fin 2)
    ∧ win1_0.index t (1 : Fin 2) = 0 ∧ win1_1.index t (1 : Fin 2) = 0
    ∧ win1_8.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val :=
  (by decide +kernel : ∀ t : Fin grid1.N, _)

/-- The value stored at row `p`, feature `q` of a block is the new state of node `r`, once each loaded
    block is known to hold the rows, the weights, the scale and the shift the update reads. -/
theorem upd_point (x0 x1 : Vec Ideal S5000x64 .f32) (x2 : Vec Ideal S128x64 .bf16) (x3 : Vec Ideal S1x64 .f32)
    (x4 : Vec Ideal S64x64 .bf16) (x5 x6 x7 : Vec Ideal S1x64 .f32)
    (A0 A1 : (⟨2, ![100000, 64]⟩ : Shape).Idx → EReal)
    (w1 : Fin 128 → Fin 64 → EReal) (b1 : Fin 64 → EReal) (w2 : Fin 64 → Fin 64 → EReal) (b2 g b : Fin 64 → EReal)
    (r : Fin 100000) (p : Fin 5000) (q : Fin 64)
    (h0 : ∀ l, x0 (ix2 p l) = A0 (ix2 r l)) (h1 : ∀ l, x1 (ix2 p l) = A1 (ix2 r l))
    (h2 : ∀ l k, x2 (ix2 l k) = w1 l k) (h3 : ∀ k, x3 (ix2 (0 : Fin 1) k) = b1 k)
    (h4 : ∀ k j, x4 (ix2 k j) = w2 k j) (h5 : ∀ j, x5 (ix2 (0 : Fin 1) j) = b2 j)
    (h6 : ∀ j, x6 (ix2 (0 : Fin 1) j) = g j) (h7 : ∀ j, x7 (ix2 (0 : Fin 1) j) = b j) :
    k1_pay1 (F := Ideal) (k1_pay4 x0 x1 x2 x3 x4 x5) (k1_pay5 x0 x1 x2 x3 x4 x5) x6 x7 (ix2 p q)
      = updArr A0 A1 w1 b1 w2 b2 g b (ix2 r q) := by
  rw [pay1]
  simp only [h0, h1, h2, h3, h4, h5, h6, h7]
  rfl

/-- A row window's block at point `t` holds the rows `5000 · t + …` of its array. -/
theorem rows1_0 (c : Dev nD) (t : Fin cfg1.N) (y : S5000x64.Idx) (k : S100000x64.Idx)
    (hk0 : (k 0).val = win1_8.index t (0 : Fin 2) * 5000 + (y 0).val) (hk1 : (k 1).val = (y 1).val) :
    (iblk1 (F := Ideal) V c 0 t : Vec Ideal S5000x64 .f32) y = (V c main_arg0 : S100000x64.Idx → EReal) k := by
  obtain ⟨e0, e1, f0, f1, f8, -⟩ := idx1 t
  show (V c main_arg0 : S100000x64.Idx → EReal) (((cfg1.win 0).blk t).view.emb y) = _
  congr 1
  funext a
  apply Fin.ext
  match a with
  | ⟨0, _⟩ => show win1_0.index t (0 : Fin 2) * 5000 + 1 * (y 0).val = (k 0).val; omega
  | ⟨1, _⟩ => show win1_0.index t (1 : Fin 2) * 64 + 1 * (y 1).val = (k 1).val; omega

theorem rows1_1 (c : Dev nD) (t : Fin cfg1.N) (y : S5000x64.Idx) (k : S100000x64.Idx)
    (hk0 : (k 0).val = win1_8.index t (0 : Fin 2) * 5000 + (y 0).val) (hk1 : (k 1).val = (y 1).val) :
    (iblk1 (F := Ideal) V c 1 t : Vec Ideal S5000x64 .f32) y = (V c main_v25 : S100000x64.Idx → EReal) k := by
  obtain ⟨e0, e1, f0, f1, f8, -⟩ := idx1 t
  show (V c main_v25 : S100000x64.Idx → EReal) (((cfg1.win 1).blk t).view.emb y) = _
  congr 1
  funext a
  apply Fin.ext
  match a with
  | ⟨0, _⟩ => show win1_1.index t (0 : Fin 2) * 5000 + 1 * (y 0).val = (k 0).val; omega
  | ⟨1, _⟩ => show win1_1.index t (1 : Fin 2) * 64 + 1 * (y 1).val = (k 1).val; omega

/-- A weight, bias, scale or shift window's one block is its whole array. -/
theorem whole1_2 (c : Dev nD) (t : Fin cfg1.N) (y : S128x64.Idx) :
    (iblk1 (F := Ideal) V c 2 t : Vec Ideal S128x64 .bf16) y = (V c main_v30 : S128x64.Idx → EReal) y := by
  obtain ⟨-, -, -, -, -, g20, g21, g30, g31, g40, g41, g50, g51, g60, g61, g70, g71, -⟩ := idx1 t
  show (V c main_v30 : S128x64.Idx → EReal) (((cfg1.win 2).blk t).view.emb y) = _
  congr 1
  funext a
  apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega

theorem whole1_3 (c : Dev nD) (t : Fin cfg1.N) (y : S1x64.Idx) :
    (iblk1 (F := Ideal) V c 3 t : Vec Ideal S1x64 .f32) y = (V c main_v26 : S1x64.Idx → EReal) y := by
  obtain ⟨-, -, -, -, -, g20, g21, g30, g31, g40, g41, g50, g51, g60, g61, g70, g71, -⟩ := idx1 t
  show (V c main_v26 : S1x64.Idx → EReal) (((cfg1.win 3).blk t).view.emb y) = _
  congr 1
  funext a
  apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

theorem whole1_4 (c : Dev nD) (t : Fin cfg1.N) (y : S64x64.Idx) :
    (iblk1 (F := Ideal) V c 4 t : Vec Ideal S64x64 .bf16) y = (V c main_v31 : S64x64.Idx → EReal) y := by
  obtain ⟨-, -, -, -, -, g20, g21, g30, g31, g40, g41, g50, g51, g60, g61, g70, g71, -⟩ := idx1 t
  show (V c main_v31 : S64x64.Idx → EReal) (((cfg1.win 4).blk t).view.emb y) = _
  congr 1
  funext a
  apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

theorem whole1_5 (c : Dev nD) (t : Fin cfg1.N) (y : S1x64.Idx) :
    (iblk1 (F := Ideal) V c 5 t : Vec Ideal S1x64 .f32) y = (V c main_v27 : S1x64.Idx → EReal) y := by
  obtain ⟨-, -, -, -, -, g20, g21, g30, g31, g40, g41, g50, g51, g60, g61, g70, g71, -⟩ := idx1 t
  show (V c main_v27 : S1x64.Idx → EReal) (((cfg1.win 5).blk t).view.emb y) = _
  congr 1
  funext a
  apply Fin.ext
  match a with
  | ⟨0, _⟩ => show win1_5.index t (0 : Fin 2) * 1 + 1 * (y 0).val = (y 0).val; omega
  | ⟨1, _⟩ => show win1_5.index t (1 : Fin 2) * 64 + 1 * (y 1).val = (y 1).val; omega

theorem whole1_6 (c : Dev nD) (t : Fin cfg1.N) (y : S1x64.Idx) :
    (iblk1 (F := Ideal) V c 6 t : Vec Ideal S1x64 .f32) y = (V c main_v28 : S1x64.Idx → EReal) y := by
  obtain ⟨-, -, -, -, -, g20, g21, g30, g31, g40, g41, g50, g51, g60, g61, g70, g71, -⟩ := idx1 t
  show (V c main_v28 : S1x64.Idx → EReal) (((cfg1.win 6).blk t).view.emb y) = _
  congr 1
  funext a
  apply Fin.ext
  match a with
  | ⟨0, _⟩ => show win1_6.index t (0 : Fin 2) * 1 + 1 * (y 0).val = (y 0).val; omega
  | ⟨1, _⟩ => show win1_6.index t (1 : Fin 2) * 64 + 1 * (y 1).val = (y 1).val; omega

theorem whole1_7 (c : Dev nD) (t : Fin cfg1.N) (y : S1x64.Idx) :
    (iblk1 (F := Ideal) V c 7 t : Vec Ideal S1x64 .f32) y = (V c main_v29 : S1x64.Idx → EReal) y := by
  obtain ⟨-, -, -, -, -, g20, g21, g30, g31, g40, g41, g50, g51, g60, g61, g70, g71, -⟩ := idx1 t
  show (V c main_v29 : S1x64.Idx → EReal) (((cfg1.win 7).blk t).view.emb y) = _
  congr 1
  funext a
  apply Fin.ext
  match a with
  | ⟨0, _⟩ => show win1_7.index t (0 : Fin 2) * 1 + 1 * (y 0).val = (y 0).val; omega
  | ⟨1, _⟩ => show win1_7.index t (1 : Fin 2) * 64 + 1 * (y 1).val = (y 1).val; omega

/-- What point `t` writes back is block `t` of the new-state array of the arrays the kernel was entered with. -/
theorem flushed1_eq (c : Dev nD) (t : Fin cfg1.N) :
    (dat1 (F := Ideal) V c).flushed 8 t
      = ((cfg1.win 8).blk t).view.read (Elt Ideal)
          (updArr (V c main_arg0) (V c main_v25)
            (fun l k => V c main_v30 (ix2 l k)) (fun k => V c main_v26 (ix2 (0 : Fin 1) k))
            (fun k j => V c main_v31 (ix2 k j)) (fun j => V c main_v27 (ix2 (0 : Fin 1) j))
            (fun j => V c main_v28 (ix2 (0 : Fin 1) j)) (fun j => V c main_v29 (ix2 (0 : Fin 1) j))) := by
  show (cfg1.win 8).cut (grid1.coords t) ((dat1 V c).after 8 t) = _
  rw [after1_8]
  unfold out1_8
  rw [View.canon_unit_zero hz]
  simp only [View.ld_unit_zero (S := S5000x64) hz, View.ld_unit_zero (S := S128x64) hz,
    View.ld_unit_zero (S := S1x64) hz, View.ld_unit_zero (S := S64x64) hz]
  obtain ⟨-, -, -, -, f8, -, -, -, -, -, -, -, -, -, -, -, -, ht⟩ := idx1 t
  have hN : cfg1.N = 20 := N_1
  have htl : t.val < 20 := hN ▸ t.isLt
  funext j
  obtain ⟨p, q, rfl⟩ : ∃ (p : Fin 5000) (q : Fin 64), j = ix2 p q := ⟨j 0, j 1, eq_ix2 j⟩
  have hr : win1_8.index t (0 : Fin 2) * 5000 + p.val < 100000 := by have := p.isLt; omega
  have hemb : ((cfg1.win 8).blk t).view.emb (ix2 p q)
      = (ix2 (⟨win1_8.index t (0 : Fin 2) * 5000 + p.val, hr⟩ : Fin 100000) q : S100000x64.Idx) := by
    funext a
    apply Fin.ext
    match a with
    | ⟨0, _⟩ => show win1_8.index t (0 : Fin 2) * 5000 + 1 * p.val = win1_8.index t (0 : Fin 2) * 5000 + p.val; omega
    | ⟨1, _⟩ => show win1_8.index t (1 : Fin 2) * 64 + 1 * q.val = q.val; omega
  rw [View.read_apply, hemb]
  refine upd_point (iblk1 V c 0 t) (iblk1 V c 1 t) (iblk1 V c 2 t) (iblk1 V c 3 t) (iblk1 V c 4 t) (iblk1 V c 5 t)
    (iblk1 V c 6 t) (iblk1 V c 7 t) _ _ _ _ _ _ _ _ ⟨win1_8.index t (0 : Fin 2) * 5000 + p.val, hr⟩ p q
    ?_ ?_ ?_ ?_ ?_ ?_ ?_ ?_
  · intro l; exact rows1_0 V c t _ _ rfl rfl
  · intro l; exact rows1_1 V c t _ _ rfl rfl
  · intro l k; exact whole1_2 V c t _
  · intro k; exact whole1_3 V c t _
  · intro k j; exact whole1_4 V c t _
  · intro j; exact whole1_5 V c t _
  · intro j; exact whole1_6 V c t _
  · intro j; exact whole1_7 V c t _

/-- An index of the new-state array is in point `t`'s block iff each coordinate is in the block's range. -/
theorem mem_blk1 (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v32).slice (win1_8.rect t)).set ↔ _
  rw [View.set_slice_whole, Rect.mem_set_unit]
  exact Iff.rfl

/-- After the 20 points the new-state array holds every node's new state. -/
theorem final1 (c : Dev nD) :
    (dat1 (F := Ideal) V c).arrAt 8 cfg1.N
      = updArr (V c main_arg0) (V c main_v25)
          (fun l k => V c main_v30 (ix2 l k)) (fun k => V c main_v26 (ix2 (0 : Fin 1) k))
          (fun k j => V c main_v31 (ix2 k j)) (fun j => V c main_v27 (ix2 (0 : Fin 1) j))
          (fun j => V c main_v28 (ix2 (0 : Fin 1) j)) (fun j => V c main_v29 (ix2 (0 : Fin 1) j)) := by
  refine (dat1 V c).arrAt_eq_of_cover 8 _ (fun t _ => flushed1_eq V c t) fun i => ?_
  have hN : cfg1.N = 20 := N_1
  have hi0 : (i 0).val < 100000 := (i 0).isLt
  have hi1 : (i 1).val < 64 := (i 1).isLt
  have hlt : (i 0).val / 5000 < cfg1.N := by rw [hN]; omega
  refine ⟨⟨(i 0).val / 5000, hlt⟩, flush1_8 _, ?_⟩
  obtain ⟨-, -, -, -, f8, -, -, -, -, -, -, -, -, -, -, -, -, ht⟩ := idx1 ⟨(i 0).val / 5000, hlt⟩
  rw [mem_blk1]
  intro a
  match a with
  | ⟨0, _⟩ =>
    show win1_8.index ⟨(i 0).val / 5000, hlt⟩ (0 : Fin 2) * 5000 ≤ (i 0).val ∧ (i 0).val < win1_8.index ⟨(i 0).val / 5000, hlt⟩ (0 : Fin 2) * 5000 + 5000
    rw [ht]; show (i 0).val / 5000 * 5000 ≤ (i 0).val ∧ (i 0).val < (i 0).val / 5000 * 5000 + 5000; omega
  | ⟨1, _⟩ =>
    show win1_8.index ⟨(i 0).val / 5000, hlt⟩ (1 : Fin 2) * 64 ≤ (i 1).val ∧ (i 1).val < win1_8.index ⟨(i 0).val / 5000, hlt⟩ (1 : Fin 2) * 64 + 64
    rw [f8]; omega

end Cert.KernelIdeal.Blocks

end
-- ==== Proof.RefValue.lean ====
/-
  The reference's messages and its result as the row-by-row functions of the specification.

  Every stage of the reference is read at a row and a column. A matrix product is the sum over the
  joined row; a bias, a scale and a shift are broadcast along the rows; the rectifier is the maximum
  with the zero word; the two row sums of the normalisation start from the zero word, which is the
  real zero; the mean, the variance and the reciprocal square root are computed once per row and
  broadcast along it. The gathered rows and the scattered sums stay as they are.
-/
import proofs.«140069_j13709535609413_1_alg».proof.Proof.Gen.ReferenceIdeal.Run
import proofs.«140069_j13709535609413_1_alg».proof.Proof.Gen.ReferenceIdeal.Read
import proofs.«140069_j13709535609413_1_alg».proof.Proof.Concat

noncomputable section

namespace Cert.ReferenceIdeal.RefValue

open Cert.ReferenceIdeal Cert.ReferenceIdeal.Read Cert.Mpnn Idealize.ShloMosaic Idealize.ShloMosaic.ValueIdx

section Stages

variable (x0 : (⟨S100000x64, .f32⟩ : BufTy).Contents (Elt Ideal)) (x1 : (⟨S2x1600000, .i32⟩ : BufTy).Contents (Elt Ideal))
    (x2 : (⟨S1600000x16, .f32⟩ : BufTy).Contents (Elt Ideal)) (x3 : (⟨S144x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S128x64, .f32⟩ : BufTy).Contents (Elt Ideal))
    (x8 : (⟨S64, .f32⟩ : BufTy).Contents (Elt Ideal)) (x9 : (⟨S64x64, .f32⟩ : BufTy).Contents (Elt Ideal))
    (x10 x11 x12 : (⟨S64, .f32⟩ : BufTy).Contents (Elt Ideal))

/-! ## The messages -/

/-- The joined edge row [h_dst | h_src | e] at row `e`, column `l`. -/
theorem edge_row (e : Fin 1600000) (l : Fin 144) :
    val_main_v18 (F := Ideal) x0 x1 x2 (ix2 e l) = (cat3 (fun q => val_main_v17 (F := Ideal) x0 x1 (ix2 e q)) (fun q => val_main_v10 (F := Ideal) x0 x1 (ix2 e q))
          (fun q => x2 (ix2 e q))) l := by
  unfold val_main_v18
  generalize val_main_v17 (F := Ideal) x0 x1 = hd
  generalize val_main_v10 (F := Ideal) x0 x1 = hs
  exact concat3_apply hd hs x2 Gen.concatenates_S1600000x64_S1600000x64_S1600000x16_S1600000x144_d1 e l

/-- The hidden layer of the message perceptron at row `e`, unit `k`. -/
theorem msg_hidden (e : Fin 1600000) (k : Fin 64) :
    val_main_v23 (F := Ideal) x0 x1 x2 x3 x4 (ix2 e k)
      = max (dense (cat3 (fun q => val_main_v17 (F := Ideal) x0 x1 (ix2 e q)) (fun q => val_main_v10 (F := Ideal) x0 x1 (ix2 e q))
          (fun q => x2 (ix2 e q)))
              (fun l k => x3 (ix2 l k)) (fun k => x4 (ix1 k)) k) (Ideal.ofBits .f32 0x00000000#32) := by
  rw [val_main_v23_apply, val_main_v22_apply, val_main_v19_apply, val_main_v21_apply, val_main_v20_apply,
    val_main_call0_v0_apply, val_main_call0_cst_apply]
  have hl : ∀ l : Fin 144, lidx_main_v19 (ix2 e k) l = ix2 e l := fun l => funext fun a => Fin.ext (by match a with | ⟨0, _⟩ => rfl | ⟨1, _⟩ => rfl)
  have hr : ∀ l : Fin 144, ridx_main_v19 (ix2 e k) l = ix2 l k := fun l => funext fun a => Fin.ext (by match a with | ⟨0, _⟩ => rfl | ⟨1, _⟩ => rfl)
  have hb : idx_main_v20 (idx_main_v21 (ix2 e k)) = ix1 k := funext fun a => Fin.ext (by match a with | ⟨0, _⟩ => rfl)
  have hsum : (∑ l : Fin 144, val_main_v18 (F := Ideal) x0 x1 x2 (lidx_main_v19 (ix2 e k) l) * x3 (ridx_main_v19 (ix2 e k) l))
      = ∑ l : Fin 144, (cat3 (fun q => val_main_v17 (F := Ideal) x0 x1 (ix2 e q)) (fun q => val_main_v10 (F := Ideal) x0 x1 (ix2 e q))
          (fun q => x2 (ix2 e q))) l * x3 (ix2 l k) :=
    Finset.sum_congr rfl fun l _ => by rw [hl l, hr l, edge_row]
  rw [hsum, hb]
  rfl

/-! ## The update -/

/-- The joined node row [h | a] at row `p`, column `l`. -/
theorem node_row (p : Fin 100000) (l : Fin 128) :
    val_main_v31 (F := Ideal) x0 x1 x2 x3 x4 x5 x6 (ix2 p l)
      = cat2 (fun q => x0 (ix2 p q)) (fun q => (val_main_v30 (F := Ideal) x0 x1 x2 x3 x4 x5 x6) (ix2 p q)) l := by
  unfold val_main_v31
  generalize val_main_v30 (F := Ideal) x0 x1 x2 x3 x4 x5 x6 = ag
  exact concat2_apply x0 ag Gen.concatenates_S100000x64_S100000x64_S100000x128_d1 p l

/-- The hidden layer of the update perceptron at row `p`, unit `k`. -/
theorem upd_hidden (p : Fin 100000) (k : Fin 64) :
    val_main_v36 (F := Ideal) x0 x1 x2 x3 x4 x5 x6 x7 x8 (ix2 p k)
      = max (dense (cat2 (fun q => x0 (ix2 p q)) (fun q => (val_main_v30 (F := Ideal) x0 x1 x2 x3 x4 x5 x6) (ix2 p q)))
              (fun l k => x7 (ix2 l k)) (fun k => x8 (ix1 k)) k) (Ideal.ofBits .f32 0x00000000#32) := by
  rw [val_main_v36_apply, val_main_v35_apply, val_main_v32_apply, val_main_v34_apply, val_main_v33_apply,
    val_main_call1_v0_apply, val_main_call1_cst_apply]
  have hl : ∀ l : Fin 128, lidx_main_v32 (ix2 p k) l = ix2 p l := fun l => funext fun a => Fin.ext (by match a with | ⟨0, _⟩ => rfl | ⟨1, _⟩ => rfl)
  have hr : ∀ l : Fin 128, ridx_main_v32 (ix2 p k) l = ix2 l k := fun l => funext fun a => Fin.ext (by match a with | ⟨0, _⟩ => rfl | ⟨1, _⟩ => rfl)
  have hb : idx_main_v33 (idx_main_v34 (ix2 p k)) = ix1 k := funext fun a => Fin.ext (by match a with | ⟨0, _⟩ => rfl)
  have hsum : (∑ l : Fin 128, val_main_v31 (F := Ideal) x0 x1 x2 x3 x4 x5 x6 (lidx_main_v32 (ix2 p k) l) * x7 (ridx_main_v32 (ix2 p k) l))
      = ∑ l : Fin 128, cat2 (fun q => x0 (ix2 p q)) (fun q => (val_main_v30 (F := Ideal) x0 x1 x2 x3 x4 x5 x6) (ix2 p q)) l * x7 (ix2 l k) :=
    Finset.sum_congr rfl fun l _ => by rw [hl l, hr l, node_row]
  rw [hsum, hb]
  rfl

/-- A node's row before the normalisation: its features plus the update perceptron of [h | a]. -/
def preNorm (p : Fin 100000) (q : Fin 64) : EReal :=
  x0 (ix2 p q)
    + mlp (cat2 (fun r => x0 (ix2 p r)) (fun r => (val_main_v30 (F := Ideal) x0 x1 x2 x3 x4 x5 x6) (ix2 p r)))
        (fun l k => x7 (ix2 l k)) (fun k => x8 (ix1 k)) (fun k j => x9 (ix2 k j)) (fun j => x10 (ix1 j)) q

/-- The residual sum at row `p`, column `q`. -/
theorem upd_residual (p : Fin 100000) (q : Fin 64) :
    val_main_v41 (F := Ideal) x0 x1 x2 x3 x4 x5 x6 x7 x8 x9 x10 (ix2 p q) = preNorm x0 x1 x2 x3 x4 x5 x6 x7 x8 x9 x10 p q := by
  rw [val_main_v41_apply, val_main_v40_apply, val_main_v37_apply, val_main_v39_apply, val_main_v38_apply]
  have hl : ∀ k : Fin 64, lidx_main_v37 (ix2 p q) k = ix2 p k := fun k => funext fun a => Fin.ext (by match a with | ⟨0, _⟩ => rfl | ⟨1, _⟩ => rfl)
  have hr : ∀ k : Fin 64, ridx_main_v37 (ix2 p q) k = ix2 k q := fun k => funext fun a => Fin.ext (by match a with | ⟨0, _⟩ => rfl | ⟨1, _⟩ => rfl)
  have hb : idx_main_v38 (idx_main_v39 (ix2 p q)) = ix1 q := funext fun a => Fin.ext (by match a with | ⟨0, _⟩ => rfl)
  have hsum : (∑ k : Fin 64, val_main_v36 (F := Ideal) x0 x1 x2 x3 x4 x5 x6 x7 x8 (lidx_main_v37 (ix2 p q) k) * x9 (ridx_main_v37 (ix2 p q) k))
      = ∑ k : Fin 64, max (dense (cat2 (fun r => x0 (ix2 p r)) (fun r => (val_main_v30 (F := Ideal) x0 x1 x2 x3 x4 x5 x6) (ix2 p r)))
              (fun l k => x7 (ix2 l k)) (fun k => x8 (ix1 k)) k) (Ideal.ofBits .f32 0x00000000#32) * x9 (ix2 k q) :=
    Finset.sum_congr rfl fun k _ => by rw [hl k, hr k, upd_hidden]
  rw [hsum, hb]
  rfl

/-- The row mean, kept in a column of width one. -/
theorem upd_mean (p : Fin 100000) (z : Fin 1) :
    val_main_v45 (F := Ideal) x0 x1 x2 x3 x4 x5 x6 x7 x8 x9 x10 (ix2 p z) = mean (preNorm x0 x1 x2 x3 x4 x5 x6 x7 x8 x9 x10 p) := by
  rw [val_main_v45_apply, val_main_v43_apply, val_main_v42_apply, val_main_v44_apply, val_main_cst_4_apply,
    val_main_cst_3_apply]
  have hi : ∀ k : Fin 64, idx_main_v42 (idx_main_v43 (ix2 p z)) k = ix2 p k := fun k => funext fun a => Fin.ext (by match a with | ⟨0, _⟩ => rfl | ⟨1, _⟩ => rfl)
  have hsum : (∑ k : Fin 64, val_main_v41 (F := Ideal) x0 x1 x2 x3 x4 x5 x6 x7 x8 x9 x10 (idx_main_v42 (idx_main_v43 (ix2 p z)) k))
      = ∑ k : Fin 64, preNorm x0 x1 x2 x3 x4 x5 x6 x7 x8 x9 x10 p k :=
    Finset.sum_congr rfl fun k _ => by rw [hi k, upd_residual]
  rw [hsum]
  show Ideal.div (Ideal.ofBits .f32 0x00000000#32 + ∑ k : Fin 64, preNorm x0 x1 x2 x3 x4 x5 x6 x7 x8 x9 x10 p k) (Ideal.ofBits .f32 0x42800000#32) = _
  rw [Ideal.ofBits_zero_f32, zero_add]
  rfl

/-- The centred row (the subtraction the reference does twice: once for the variance, once for the result). -/
theorem upd_centred (p : Fin 100000) (q : Fin 64) :
    val_main_v54 (F := Ideal) x0 x1 x2 x3 x4 x5 x6 x7 x8 x9 x10 (ix2 p q)
      = preNorm x0 x1 x2 x3 x4 x5 x6 x7 x8 x9 x10 p q - mean (preNorm x0 x1 x2 x3 x4 x5 x6 x7 x8 x9 x10 p) := by
  rw [val_main_v54_apply, val_main_v53_apply, upd_residual]
  have hi : idx_main_v53 (ix2 p q) = ix2 p (⟨0, Nat.one_pos⟩ : Fin 1) := funext fun a => Fin.ext (by match a with | ⟨0, _⟩ => rfl | ⟨1, _⟩ => rfl)
  rw [hi, upd_mean]
  rfl

theorem upd_centred' (p : Fin 100000) (q : Fin 64) :
    val_main_v47 (F := Ideal) x0 x1 x2 x3 x4 x5 x6 x7 x8 x9 x10 (ix2 p q)
      = preNorm x0 x1 x2 x3 x4 x5 x6 x7 x8 x9 x10 p q - mean (preNorm x0 x1 x2 x3 x4 x5 x6 x7 x8 x9 x10 p) := by
  rw [val_main_v47_apply, val_main_v46_apply, upd_residual]
  have hi : idx_main_v46 (ix2 p q) = ix2 p (⟨0, Nat.one_pos⟩ : Fin 1) := funext fun a => Fin.ext (by match a with | ⟨0, _⟩ => rfl | ⟨1, _⟩ => rfl)
  rw [hi, upd_mean]
  rfl

/-- The reciprocal square root of the shifted row variance, kept in a column of width one. -/
theorem upd_rstd (p : Fin 100000) (z : Fin 1) :
    val_main_v57 (F := Ideal) x0 x1 x2 x3 x4 x5 x6 x7 x8 x9 x10 (ix2 p z)
      = Ideal.rsqrt (Ideal.div (∑ k : Fin 64, (preNorm x0 x1 x2 x3 x4 x5 x6 x7 x8 x9 x10 p k - mean (preNorm x0 x1 x2 x3 x4 x5 x6 x7 x8 x9 x10 p))
              * (preNorm x0 x1 x2 x3 x4 x5 x6 x7 x8 x9 x10 p k - mean (preNorm x0 x1 x2 x3 x4 x5 x6 x7 x8 x9 x10 p))) (Ideal.ofBits .f32 0x42800000#32)
          + Ideal.ofBits .f32 0x3727C5AC#32) := by
  rw [val_main_v57_apply, val_main_v56_apply, val_main_v52_apply, val_main_v50_apply, val_main_v49_apply,
    val_main_v51_apply, val_main_v55_apply, val_main_cst_5_apply, val_main_cst_6_apply, val_main_cst_7_apply]
  have hi : ∀ k : Fin 64, idx_main_v49 (idx_main_v50 (ix2 p z)) k = ix2 p k := fun k => funext fun a => Fin.ext (by match a with | ⟨0, _⟩ => rfl | ⟨1, _⟩ => rfl)
  have hsum : (∑ k : Fin 64, val_main_v48 (F := Ideal) x0 x1 x2 x3 x4 x5 x6 x7 x8 x9 x10 (idx_main_v49 (idx_main_v50 (ix2 p z)) k))
      = ∑ k : Fin 64, (preNorm x0 x1 x2 x3 x4 x5 x6 x7 x8 x9 x10 p k - mean (preNorm x0 x1 x2 x3 x4 x5 x6 x7 x8 x9 x10 p))
              * (preNorm x0 x1 x2 x3 x4 x5 x6 x7 x8 x9 x10 p k - mean (preNorm x0 x1 x2 x3 x4 x5 x6 x7 x8 x9 x10 p)) :=
    Finset.sum_congr rfl fun k _ => by rw [hi k, val_main_v48_apply, upd_centred']; rfl
  rw [hsum]
  show Ideal.rsqrt (Ideal.div (Ideal.ofBits .f32 0x00000000#32 + _) (Ideal.ofBits .f32 0x42800000#32)
      + Ideal.ofBits .f32 0x3727C5AC#32) = _
  rw [Ideal.ofBits_zero_f32, zero_add]

end Stages

/-! ## The two stages as the specification's functions -/

theorem ref_msg (x0 : (⟨S100000x64, .f32⟩ : BufTy).Contents (Elt Ideal)) (x1 : (⟨S2x1600000, .i32⟩ : BufTy).Contents (Elt Ideal))
    (x2 : (⟨S1600000x16, .f32⟩ : BufTy).Contents (Elt Ideal)) (x3 : (⟨S144x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v27 (F := Ideal) x0 x1 x2 x3 x4 x5 x6
      = msgArr (val_main_v17 (F := Ideal) x0 x1) (val_main_v10 (F := Ideal) x0 x1) x2
          (fun l k => x3 (ix2 l k)) (fun k => x4 (ix1 k)) (fun k j => x5 (ix2 k j)) (fun j => x6 (ix1 j)) := by
  funext i
  obtain ⟨e, j, rfl⟩ : ∃ (e : Fin 1600000) (j : Fin 64), i = ix2 e j := ⟨i 0, i 1, eq_ix2 i⟩
  rw [val_main_v27_apply, val_main_v24_apply, val_main_v26_apply, val_main_v25_apply]
  have hl : ∀ k : Fin 64, lidx_main_v24 (ix2 e j) k = ix2 e k := fun k => funext fun a => Fin.ext (by match a with | ⟨0, _⟩ => rfl | ⟨1, _⟩ => rfl)
  have hr : ∀ k : Fin 64, ridx_main_v24 (ix2 e j) k = ix2 k j := fun k => funext fun a => Fin.ext (by match a with | ⟨0, _⟩ => rfl | ⟨1, _⟩ => rfl)
  have hb : idx_main_v25 (idx_main_v26 (ix2 e j)) = ix1 j := funext fun a => Fin.ext (by match a with | ⟨0, _⟩ => rfl)
  have hsum : (∑ k : Fin 64, val_main_v23 (F := Ideal) x0 x1 x2 x3 x4 (lidx_main_v24 (ix2 e j) k) * x5 (ridx_main_v24 (ix2 e j) k))
      = ∑ k : Fin 64, max (dense (cat3 (fun q => val_main_v17 (F := Ideal) x0 x1 (ix2 e q)) (fun q => val_main_v10 (F := Ideal) x0 x1 (ix2 e q))
          (fun q => x2 (ix2 e q)))
              (fun l k => x3 (ix2 l k)) (fun k => x4 (ix1 k)) k) (Ideal.ofBits .f32 0x00000000#32) * x5 (ix2 k j) :=
    Finset.sum_congr rfl fun k _ => by rw [hl k, hr k, msg_hidden]
  rw [hsum, hb]
  rfl

theorem ref_upd (x0 : (⟨S100000x64, .f32⟩ : BufTy).Contents (Elt Ideal)) (x1 : (⟨S2x1600000, .i32⟩ : BufTy).Contents (Elt Ideal))
    (x2 : (⟨S1600000x16, .f32⟩ : BufTy).Contents (Elt Ideal)) (x3 : (⟨S144x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S128x64, .f32⟩ : BufTy).Contents (Elt Ideal))
    (x8 : (⟨S64, .f32⟩ : BufTy).Contents (Elt Ideal)) (x9 : (⟨S64x64, .f32⟩ : BufTy).Contents (Elt Ideal))
    (x10 x11 x12 : (⟨S64, .f32⟩ : BufTy).Contents (Elt Ideal)) :
    val_main_v65 (F := Ideal) x0 x1 x2 x3 x4 x5 x6 x7 x8 x9 x10 x11 x12
      = updArr x0 (val_main_v30 (F := Ideal) x0 x1 x2 x3 x4 x5 x6)
          (fun l k => x7 (ix2 l k)) (fun k => x8 (ix1 k)) (fun k j => x9 (ix2 k j)) (fun j => x10 (ix1 j))
          (fun j => x11 (ix1 j)) (fun j => x12 (ix1 j)) := by
  funext i
  obtain ⟨p, j, rfl⟩ : ∃ (p : Fin 100000) (j : Fin 64), i = ix2 p j := ⟨i 0, i 1, eq_ix2 i⟩
  rw [val_main_v65_apply, val_main_v62_apply, val_main_v59_apply, val_main_v58_apply, val_main_v61_apply,
    val_main_v60_apply, val_main_v64_apply, val_main_v63_apply, upd_centred]
  have hz : idx_main_v58 (ix2 p j) = ix2 p (⟨0, Nat.one_pos⟩ : Fin 1) := funext fun a => Fin.ext (by match a with | ⟨0, _⟩ => rfl | ⟨1, _⟩ => rfl)
  have hg : idx_main_v60 (idx_main_v61 (ix2 p j)) = ix1 j := funext fun a => Fin.ext (by match a with | ⟨0, _⟩ => rfl)
  have hb : idx_main_v63 (idx_main_v64 (ix2 p j)) = ix1 j := funext fun a => Fin.ext (by match a with | ⟨0, _⟩ => rfl)
  rw [hz, hg, hb, upd_rstd]
  rfl

end Cert.ReferenceIdeal.RefValue

end
-- ==== Proof.KernelWhole.lean ====
/-
  The kernel program's result as one function of its arguments.

  @main is: host operations (the two row gathers of the node features by the edges' end points, the biases
  reshaped to one row, the weights' change of float format, which is the identity over the reals), the first
  kernel over 200 blocks of 8000 edges, host operations (the sum of the messages at each edge's destination
  node, again the biases and weights), the second kernel over 20 blocks of 5000 nodes. Reading each stretch
  back, the array the second kernel leaves is the node update of the arguments and of the scattered sums of
  the edge messages: the same composed function the reference computes, with the gathers and the scatter
  carried along unopened.
-/
import proofs.«140069_j13709535609413_1_alg».proof.Proof.Gen.KernelIdeal.Frame
import proofs.«140069_j13709535609413_1_alg».proof.Proof.KernelBlocks
import proofs.«140069_j13709535609413_1_alg».proof.Proof.RefValue
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen Cert.Mpnn
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- Argument 0 of the launch, on core `c`. -/
abbrev A0 (c : Dev nD) : (⟨S100000x64, .f32⟩ : BufTy).Contents (Elt Ideal) := m ((c.tc : Thread nD τ).loc main_arg0)
/-- Argument 1 of the launch, on core `c`. -/
abbrev A1 (c : Dev nD) : (⟨S2x1600000, .i32⟩ : BufTy).Contents (Elt Ideal) := m ((c.tc : Thread nD τ).loc main_arg1)
/-- Argument 2 of the launch, on core `c`. -/
abbrev A2 (c : Dev nD) : (⟨S1600000x16, .f32⟩ : BufTy).Contents (Elt Ideal) := m ((c.tc : Thread nD τ).loc main_arg2)
/-- Argument 3 of the launch, on core `c`. -/
abbrev A3 (c : Dev nD) : (⟨S144x64, .f32⟩ : BufTy).Contents (Elt Ideal) := m ((c.tc : Thread nD τ).loc main_arg3)
/-- Argument 4 of the launch, on core `c`. -/
abbrev A4 (c : Dev nD) : (⟨S64, .f32⟩ : BufTy).Contents (Elt Ideal) := m ((c.tc : Thread nD τ).loc main_arg4)
/-- Argument 5 of the launch, on core `c`. -/
abbrev A5 (c : Dev nD) : (⟨S64x64, .f32⟩ : BufTy).Contents (Elt Ideal) := m ((c.tc : Thread nD τ).loc main_arg5)
/-- Argument 6 of the launch, on core `c`. -/
abbrev A6 (c : Dev nD) : (⟨S64, .f32⟩ : BufTy).Contents (Elt Ideal) := m ((c.tc : Thread nD τ).loc main_arg6)
/-- Argument 7 of the launch, on core `c`. -/
abbrev A7 (c : Dev nD) : (⟨S128x64, .f32⟩ : BufTy).Contents (Elt Ideal) := m ((c.tc : Thread nD τ).loc main_arg7)
/-- Argument 8 of the launch, on core `c`. -/
abbrev A8 (c : Dev nD) : (⟨S64, .f32⟩ : BufTy).Contents (Elt Ideal) := m ((c.tc : Thread nD τ).loc main_arg8)
/-- Argument 9 of the launch, on core `c`. -/
abbrev A9 (c : Dev nD) : (⟨S64x64, .f32⟩ : BufTy).Contents (Elt Ideal) := m ((c.tc : Thread nD τ).loc main_arg9)
/-- Argument 10 of the launch, on core `c`. -/
abbrev A10 (c : Dev nD) : (⟨S64, .f32⟩ : BufTy).Contents (Elt Ideal) := m ((c.tc : Thread nD τ).loc main_arg10)
/-- Argument 11 of the launch, on core `c`. -/
abbrev A11 (c : Dev nD) : (⟨S64, .f32⟩ : BufTy).Contents (Elt Ideal) := m ((c.tc : Thread nD τ).loc main_arg11)
/-- Argument 12 of the launch, on core `c`. -/
abbrev A12 (c : Dev nD) : (⟨S64, .f32⟩ : BufTy).Contents (Elt Ideal) := m ((c.tc : Thread nD τ).loc main_arg12)

/-! ## The first kernel's arrays as it finds them: the first host stretch read back -/

/-- The rows of the node features at the edges' destination nodes. -/
theorem entry0_dst (c : Dev nD) : V1 m ρ c main_v17 = Cert.ReferenceIdeal.Read.val_main_v17 (F := Ideal) (A0 m c) (A1 m c) := by
  show StableHlo.after hostOps0 (W0 m ρ c) (Proc.devRef .tc main_v17) = _
  after_results <;> rfl

/-- The rows of the node features at the edges' source nodes. -/
theorem entry0_src (c : Dev nD) : V1 m ρ c main_v10 = Cert.ReferenceIdeal.Read.val_main_v10 (F := Ideal) (A0 m c) (A1 m c) := by
  show StableHlo.after hostOps0 (W0 m ρ c) (Proc.devRef .tc main_v10) = _
  after_results <;> rfl

/-- The edge features are the argument itself. -/
theorem entry0_ef (c : Dev nD) : V1 m ρ c main_arg2 = A2 m c := by
  show StableHlo.after hostOps0 (W0 m ρ c) (Proc.devRef .tc main_arg2) = _
  after_results <;> rfl

/-- The first layer's weights: the change of float format is the identity over the reals. -/
theorem entry0_w1 (c : Dev nD) : (V1 m ρ c main_v20 : S144x64.Idx → EReal) = A3 m c := by
  show StableHlo.after hostOps0 (W0 m ρ c) (Proc.devRef .tc main_v20) = _
  after_results <;> rfl

/-- The first layer's bias as one row. -/
theorem entry0_b1 (c : Dev nD) : V1 m ρ c main_v18 = shapeCast S1x64 (A4 m c) shapeCasts_S64_S1x64 := by
  show StableHlo.after hostOps0 (W0 m ρ c) (Proc.devRef .tc main_v18) = _
  after_results <;> rfl

/-- The second layer's weights, likewise. -/
theorem entry0_w2 (c : Dev nD) : (V1 m ρ c main_v21 : S64x64.Idx → EReal) = A5 m c := by
  show StableHlo.after hostOps0 (W0 m ρ c) (Proc.devRef .tc main_v21) = _
  after_results <;> rfl

/-- The second layer's bias as one row. -/
theorem entry0_b2 (c : Dev nD) : V1 m ρ c main_v19 = shapeCast S1x64 (A6 m c) shapeCasts_S64_S1x64 := by
  show StableHlo.after hostOps0 (W0 m ρ c) (Proc.devRef .tc main_v19) = _
  after_results <;> rfl

/-! ## After the first kernel -/

/-- The first kernel leaves every edge's message: the reference's messages of the same arguments. -/
theorem messages (c : Dev nD) :
    W2 m ρ c (Proc.devRef .tc main_v22)
      = Cert.ReferenceIdeal.Read.val_main_v27 (F := Ideal) (A0 m c) (A1 m c) (A2 m c) (A3 m c) (A4 m c) (A5 m c) (A6 m c) := by
  refine (W2_arr m ρ c 7).trans ((Cert.KernelIdeal.Blocks.final0 (V1 m ρ) c).trans ?_)
  rw [entry0_dst, entry0_src, entry0_ef, entry0_w1, entry0_b1, entry0_w2, entry0_b2,
    Cert.ReferenceIdeal.RefValue.ref_msg]
  simp only [shapeCast_a_1a_apply]

/-- A buffer the first kernel does not write, and the first stretch does not either, still holds its launch contents
    after the first kernel: the edges' destination nodes as a column of indices … -/
theorem after0_dstIdx (c : Dev nD) :
    W2 m ρ c (Proc.devRef .tc main_v3) = Cert.ReferenceIdeal.Read.val_main_v3 (F := Ideal) (A1 m c) :=
  (W2_of_ne m ρ c main_v3 (by decide)).trans (by
    show StableHlo.after hostOps0 (W0 m ρ c) (Proc.devRef .tc main_v3) = _
    after_results <;> rfl)

/-- … and the arguments the second kernel and its host stretch read. -/
theorem after0_arg0 (c : Dev nD) : W2 m ρ c (Proc.devRef .tc main_arg0) = A0 m c :=
  (W2_of_ne m ρ c main_arg0 (by decide)).trans (by
    show StableHlo.after hostOps0 (W0 m ρ c) (Proc.devRef .tc main_arg0) = _
    after_results <;> rfl)
theorem after0_arg7 (c : Dev nD) : W2 m ρ c (Proc.devRef .tc main_arg7) = A7 m c :=
  (W2_of_ne m ρ c main_arg7 (by decide)).trans (by
    show StableHlo.after hostOps0 (W0 m ρ c) (Proc.devRef .tc main_arg7) = _
    after_results <;> rfl)
theorem after0_arg8 (c : Dev nD) : W2 m ρ c (Proc.devRef .tc main_arg8) = A8 m c :=
  (W2_of_ne m ρ c main_arg8 (by decide)).trans (by
    show StableHlo.after hostOps0 (W0 m ρ c) (Proc.devRef .tc main_arg8) = _
    after_results <;> rfl)
theorem after0_arg9 (c : Dev nD) : W2 m ρ c (Proc.devRef .tc main_arg9) = A9 m c :=
  (W2_of_ne m ρ c main_arg9 (by decide)).trans (by
    show StableHlo.after hostOps0 (W0 m ρ c) (Proc.devRef .tc main_arg9) = _
    after_results <;> rfl)
theorem after0_arg10 (c : Dev nD) : W2 m ρ c (Proc.devRef .tc main_arg10) = A10 m c :=
  (W2_of_ne m ρ c main_arg10 (by decide)).trans (by
    show StableHlo.after hostOps0 (W0 m ρ c) (Proc.devRef .tc main_arg10) = _
    after_results <;> rfl)
theorem after0_arg11 (c : Dev nD) : W2 m ρ c (Proc.devRef .tc main_arg11) = A11 m c :=
  (W2_of_ne m ρ c main_arg11 (by decide)).trans (by
    show StableHlo.after hostOps0 (W0 m ρ c) (Proc.devRef .tc main_arg11) = _
    after_results <;> rfl)
theorem after0_arg12 (c : Dev nD) : W2 m ρ c (Proc.devRef .tc main_arg12) = A12 m c :=
  (W2_of_ne m ρ c main_arg12 (by decide)).trans (by
    show StableHlo.after hostOps0 (W0 m ρ c) (Proc.devRef .tc main_arg12) = _
    after_results <;> rfl)

/-! ## The second kernel's arrays as it finds them: the second host stretch read back -/

/-- The node features are the argument itself. -/
theorem entry1_nf (c : Dev nD) : V3 m ρ c main_arg0 = A0 m c := by
  show StableHlo.after hostOps1 (W2 m ρ c) (Proc.devRef .tc main_arg0) = _
  after_results
  exact after0_arg0 m ρ c

/-- The messages summed at each edge's destination node: the reference's scattered sums of the same arguments. -/
theorem entry1_agg (c : Dev nD) :
    V3 m ρ c main_v25 = Cert.ReferenceIdeal.Read.val_main_v30 (F := Ideal) (A0 m c) (A1 m c) (A2 m c) (A3 m c) (A4 m c) (A5 m c) (A6 m c) := by
  show StableHlo.after hostOps1 (W2 m ρ c) (Proc.devRef .tc main_v25) = _
  after_results
  rw [messages m ρ c, after0_dstIdx m ρ c]
  rfl

theorem entry1_w1 (c : Dev nD) : (V3 m ρ c main_v30 : S128x64.Idx → EReal) = A7 m c := by
  show StableHlo.after hostOps1 (W2 m ρ c) (Proc.devRef .tc main_v30) = _
  after_results
  rw [after0_arg7 m ρ c]
  rfl
theorem entry1_b1 (c : Dev nD) : V3 m ρ c main_v26 = shapeCast S1x64 (A8 m c) shapeCasts_S64_S1x64 := by
  show StableHlo.after hostOps1 (W2 m ρ c) (Proc.devRef .tc main_v26) = _
  after_results
  rw [after0_arg8 m ρ c]
  rfl
theorem entry1_w2 (c : Dev nD) : (V3 m ρ c main_v31 : S64x64.Idx → EReal) = A9 m c := by
  show StableHlo.after hostOps1 (W2 m ρ c) (Proc.devRef .tc main_v31) = _
  after_results
  rw [after0_arg9 m ρ c]
  rfl
theorem entry1_b2 (c : Dev nD) : V3 m ρ c main_v27 = shapeCast S1x64 (A10 m c) shapeCasts_S64_S1x64 := by
  show StableHlo.after hostOps1 (W2 m ρ c) (Proc.devRef .tc main_v27) = _
  after_results
  rw [after0_arg10 m ρ c]
  rfl
theorem entry1_scale (c : Dev nD) : V3 m ρ c main_v28 = shapeCast S1x64 (A11 m c) shapeCasts_S64_S1x64 := by
  show StableHlo.after hostOps1 (W2 m ρ c) (Proc.devRef .tc main_v28) = _
  after_results
  rw [after0_arg11 m ρ c]
  rfl
theorem entry1_shift (c : Dev nD) : V3 m ρ c main_v29 = shapeCast S1x64 (A12 m c) shapeCasts_S64_S1x64 := by
  show StableHlo.after hostOps1 (W2 m ρ c) (Proc.devRef .tc main_v29) = _
  after_results
  rw [after0_arg12 m ρ c]
  rfl

/-! ## The result -/

/-- The array the second kernel leaves is the reference's result of the same arguments. -/
theorem result (c : Dev nD) :
    W4 m ρ c (Proc.devRef .tc main_v32)
      = Cert.ReferenceIdeal.Read.val_main_v65 (F := Ideal) (A0 m c) (A1 m c) (A2 m c) (A3 m c) (A4 m c) (A5 m c) (A6 m c) (A7 m c) (A8 m c) (A9 m c) (A10 m c) (A11 m c) (A12 m c) := by
  refine (W4_arr m ρ c 8).trans ((Cert.KernelIdeal.Blocks.final1 (V3 m ρ) c).trans ?_)
  rw [entry1_nf, entry1_agg, entry1_w1, entry1_b1, entry1_w2, entry1_b2, entry1_scale, entry1_shift,
    Cert.ReferenceIdeal.RefValue.ref_upd]
  simp only [shapeCast_a_1a_apply]

end Cert.KernelIdeal.Whole

end
-- ==== Proof.lean ====
/-
  One round of message passing on a graph: every edge's message is a two-layer perceptron of the row
  [h_dst | h_src | e]; the messages are summed at their destination nodes; every node's new state is the layer
  normalisation of h + mlp [h | a]. The kernel program computes the two perceptrons (and the normalisation)
  in two tiled kernels, the weights first passed through a narrower float format, and leaves the gathers and
  the scatter-sum to host operations; the reference does everything with whole-array host operations.

  Over the extended reals the change of float format is the identity, a kernel's matrix product into a zero
  accumulator and the host's contraction are the same finite sum, and a lane reduction and the host's
  reduction from a zero initial value are the same sum, so both programs compute, row by row, the same
  function of the same rows (Proof/Spec.lean); the gathers and the scatter-sum are the same operations applied
  to equal operands and are never opened. No law used here needs the inputs to be finite.

  The three frames are the generated frame certificates (the reference's is its generated run with the
  result dropped); the idealization rewrote nothing, so it preserves trivially; the value claim is the
  kernel program's run with its result named (Proof/KernelRun.lean), that result as the reference's composed
  function of the arguments (Proof/KernelWhole.lean over Proof/KernelBlocks.lean, Proof/KernelPay.lean and
  Proof/RefValue.lean), and the reference's generated run.
-/
import proofs.«140069_j13709535609413_1_alg».proof.Defs
import proofs.«140069_j13709535609413_1_alg».proof.Proof.Gen.Kernel
import proofs.«140069_j13709535609413_1_alg».proof.Proof.Gen.Kernel.Skeleton
import proofs.«140069_j13709535609413_1_alg».proof.Proof.Gen.Kernel.Launch
import proofs.«140069_j13709535609413_1_alg».proof.Proof.Gen.Kernel.Points
import proofs.«140069_j13709535609413_1_alg».proof.Proof.Gen.Kernel.Frame
import proofs.«140069_j13709535609413_1_alg».proof.Proof.Gen.KernelIdeal
import proofs.«140069_j13709535609413_1_alg».proof.Proof.Gen.KernelIdeal.Skeleton
import proofs.«140069_j13709535609413_1_alg».proof.Proof.Gen.KernelIdeal.Launch
import proofs.«140069_j13709535609413_1_alg».proof.Proof.Gen.KernelIdeal.Points
import proofs.«140069_j13709535609413_1_alg».proof.Proof.Gen.KernelIdeal.Frame
import proofs.«140069_j13709535609413_1_alg».proof.Proof.Gen.ReferenceIdeal
import proofs.«140069_j13709535609413_1_alg».proof.Proof.Gen.ReferenceIdeal.Run
import proofs.«140069_j13709535609413_1_alg».proof.Proof.Gen.ReferenceIdeal.Read
import proofs.«140069_j13709535609413_1_alg».proof.Proof.Gen.Pre_finite_inputs
import proofs.«140069_j13709535609413_1_alg».proof.Proof.KernelRun
import proofs.«140069_j13709535609413_1_alg».proof.Proof.KernelWhole
import Idealize.ShloMosaic.Adequacy
import Idealize.ShloMosaic.Init

noncomputable section

namespace Cert.Proof

open Idealize.ShloMosaic Idealize.SL.Sem

/-- The word-level kernel program runs and keeps its arguments: the generated frame certificate. -/
theorem frame_k : Cert.frame_Kernel (hKernel := Cert.Kernel.Gen.facts) (hPre_finite_inputs := Cert.Pre_finite_inputs.Gen.facts) :=
  fun m ρ _ => Cert.Kernel.Gen.frame m ρ

/-- The idealized kernel program likewise. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the thirteen arguments both programs end with the same result array: the
    reference's composed function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v65 (F := Ideal)
      (Cert.KernelIdeal.Whole.A0 m c) (Cert.KernelIdeal.Whole.A1 m c) (Cert.KernelIdeal.Whole.A2 m c) (Cert.KernelIdeal.Whole.A3 m c) (Cert.KernelIdeal.Whole.A4 m c) (Cert.KernelIdeal.Whole.A5 m c) (Cert.KernelIdeal.Whole.A6 m c) (Cert.KernelIdeal.Whole.A7 m c) (Cert.KernelIdeal.Whole.A8 m c) (Cert.KernelIdeal.Whole.A9 m c) (Cert.KernelIdeal.Whole.A10 m c) (Cert.KernelIdeal.Whole.A11 m c) (Cert.KernelIdeal.Whole.A12 m c), ?_, ?_⟩
  · exact (θ_run Cert.KernelIdeal.defs _ _).mono
      (fun r h c => ⟨(h c).1.trans (Cert.KernelIdeal.Whole.result m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v65_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
